-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S512x512 : Shape := ⟨2, ![512, 512]⟩
abbrev S1024x512 : Shape := ⟨2, ![1024, 512]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S1024 : Shape := ⟨1, ![1024]⟩
abbrev S1024x1 : Shape := ⟨2, ![1024, 1]⟩
abbrev S_ : Shape := ⟨0, ![]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v93 : BitVec 1 := Scalar.cmpi .eq arg1 c3_i32
  let v94 : BitVec 32 := Scalar.extui v93
  let c0_i32_42 : BitVec 32 := 0#32
  let v95 : BitVec 1 := Scalar.cmpi .ne v94 c0_i32_42
  v95

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  reduces_S512x512_S512 : S512x512.Reduces [1] S512
  shapeCasts_S512_S512x1 : S512.ShapeCasts S512x1
  reduces_S1024x512_S1024 : S1024x512.Reduces [1] S1024
  shapeCasts_S1024_S1024x1 : S1024.ShapeCasts S1024x1
  transposes_S1024x1_p1_0_S1x1024 : S1024x1.Transposes [1, 0] S1x1024
  broadcasts_S512x1_S512x1024 : S512x1.Broadcasts S512x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S512x1024_d0_w32 : S512x1024.Iotas .tc 32 [0]
  iota_S512x1024_d1_w32 : S512x1024.Iotas .tc 32 [1]
  reduces_S512x1024_S512 : S512x1024.Reduces [1] S512
  natLt_1_32 : 1 < 32
  reducesTo_S4096x1_S_d0_1 : S4096x1.ReducesTo [0, 1] S_
  h_S_ : 0 < S_.numel
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .i32 = 32 ∨ (Rect.block (s := S1x4096) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S512x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .i1⟩
  | .hbm, ⟨33, _⟩ => ⟨S4096x4096, .i1⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096, .f32⟩
  | .hbm, ⟨47, _⟩ => ⟨S4096x4096, .i32⟩
  | .hbm, ⟨48, _⟩ => ⟨S_, .i32⟩
  | .hbm, ⟨49, _⟩ => ⟨S4096, .i32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S4096x4096, .f32⟩
  | .hbm, ⟨57, _⟩ => ⟨S4096x4096, .i1⟩
  | .hbm, ⟨58, _⟩ => ⟨S4096x4096, .i1⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_call2_v0 : Ref sig .tc := ⟨.hbm, 67, rfl⟩
abbrev main_call2_v1 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_cst_14 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_16 : Ref sig .tc := ⟨.hbm, 83, rfl⟩
abbrev main_v57 : Ref sig .tc := ⟨.hbm, 84, rfl⟩
abbrev main_cst_17 : Ref sig .tc := ⟨.hbm, 85, rfl⟩
abbrev main_v58 : Ref sig .tc := ⟨.hbm, 86, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  natLt_1_32 : 1 < 32
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.K.Kit.lean ====
/- What the three whole-body runs of the row-block loss kernel and its frame share. The grid is 8 x 4, point
   t = 4 * i + j: at row block i the kernel walks the four column blocks j, adding into four column accumulators of
   512 rows; it clears them at j = 0 and divides them into the output block at j = 3. Here: the contents the region
   finds (the two label broadcasts applied to the arguments), each input window's block as a function of the point,
   the closed forms of the two branch conditions (j = 0, j = 3), where the output window is idle, and the names of
   the staging and accumulator memrefs the runs are stated over. -/
import proofs.«136497_j10256381903181_1_alg».proof.Proof.Gen.Kernel.Launch
import proofs.«136497_j10256381903181_1_alg».proof.Proof.Gen.Kernel.Skeleton
import proofs.«136497_j10256381903181_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of the full extents is decided structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered, as a valuation: the arguments with the two label
    broadcasts (a column [4096,1] and a row [1,4096] of the label vector) written. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The two broadcasts allocate nothing. -/
theorem hostOps0_fresh : (hostOps0 : List (HloOp τ sig (Elt F))).Forall fun op => op.fresh = ∅ := by
  simp only [List.Forall]; repeat' constructor

/-- Nor do the four operations after the region (zero, the sum over rows, 4096, the quotient). -/
theorem hostOps1_fresh : (hostOps1 : List (HloOp τ sig (Elt F))).Forall fun op => op.fresh = ∅ := by
  simp only [List.Forall]; repeat' constructor

/-- The program is the broadcasts, the region, and the mean: it reduces to the region entered at V and continued
    by the four later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The broadcasts leave the feature matrix as the caller gave it. -/
theorem V_main_arg0 (c : Dev nD) : V m c main_arg0 = m ((c : Thread nD τ).loc main_arg0) := by
  show StableHlo.after hostOps0 (fun b => m (c, b)) (Proc.devRef .tc main_arg0) = _
  after_results

/-- And the label vector. -/
theorem V_main_arg1 (c : Dev nD) : V m c main_arg1 = m ((c : Thread nD τ).loc main_arg1) := by
  show StableHlo.after hostOps0 (fun b => m (c, b)) (Proc.devRef .tc main_arg1) = _
  after_results

/-- The row labels the region reads are the label vector as a column. -/
theorem V_main_v0 (c : Dev nD) : V m c main_v0
    = (broadcastInDim S4096x1 ![0] bcast_S4096_S4096x1_0 (m ((c : Thread nD τ).loc main_arg1)) : (⟨S4096x1, .i32⟩ : BufTy).Contents (Elt F)) := by
  show StableHlo.after hostOps0 (fun b => m (c, b)) (Proc.devRef .tc main_v0) = _
  after_results

/-- The column labels it reads are the label vector as a row. -/
theorem V_main_v1 (c : Dev nD) : V m c main_v1
    = (broadcastInDim S1x4096 ![1] bcast_S4096_S1x4096_1 (m ((c : Thread nD τ).loc main_arg1)) : (⟨S1x4096, .i32⟩ : BufTy).Contents (Elt F)) := by
  show StableHlo.after hostOps0 (fun b => m (c, b)) (Proc.devRef .tc main_v1) = _
  after_results

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or not:
    the window is an input, never idle and uncut, and the body leaves the block in place (hafter), so an unfetched
    point still sees the block of the last fetch, whose index has not moved. Stated for any proof data whose array
    is the region-entry contents (hA). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or not:
    the window is an input, never idle and uncut, and the body leaves the block in place (hafter), so an unfetched
    point still sees the block of the last fetch, whose index has not moved. Stated for any proof data whose array
    is the region-entry contents (hA). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or not:
    the window is an input, never idle and uncut, and the body leaves the block in place (hafter), so an unfetched
    point still sees the block of the last fetch, whose index has not moved. Stated for any proof data whose array
    is the region-entry contents (hA). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or not:
    the window is an input, never idle and uncut, and the body leaves the block in place (hafter), so an unfetched
    point still sees the block of the last fetch, whose index has not moved. Stated for any proof data whose array
    is the region-entry contents (hA). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The condition under which the body clears the accumulators: the column-block coordinate is 0. -/
abbrev cond0_0 (i : grid0.Coords) : Prop := (Scalar.cmpi .ne (Scalar.extui (Scalar.cmpi .eq (BitVec.ofNat 32 (i 1).val) 0#32)) 0#32) = 1#1
/-- It holds at the points t with t % 4 = 0: decided over the 32 points. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition under which the body writes the output block: the column-block coordinate is 3. -/
abbrev cond0_1 (i : grid0.Coords) : Prop := k0_cond2 i = 1#1
/-- It holds at the points t with t % 4 = 3: decided over the 32 points. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At j = 0 the output window is idle: the body stores nothing into it. -/
theorem idleAt0_4_A : ∀ t : Fin cfg0.N, cond0_0 (grid0.coords t) → ¬cond0_1 (grid0.coords t) → cfg0.idle 4 (grid0.coords t) = true := by decide +kernel
/-- And its block is not written back there. -/
theorem noFlush0_4_A : ∀ t : Fin cfg0.N, cond0_0 (grid0.coords t) → ¬cond0_1 (grid0.coords t) → (cfg0.win 4).flush t = false := by decide +kernel
/-- At j = 1, 2 likewise: idle, -/
theorem idleAt0_4_B : ∀ t : Fin cfg0.N, ¬cond0_0 (grid0.coords t) → ¬cond0_1 (grid0.coords t) → cfg0.idle 4 (grid0.coords t) = true := by decide +kernel
/-- and not written back. -/
theorem noFlush0_4_B : ∀ t : Fin cfg0.N, ¬cond0_0 (grid0.coords t) → ¬cond0_1 (grid0.coords t) → (cfg0.win 4).flush t = false := by decide +kernel
/-- At j = 3 the output window is live: the body stores the block. -/
theorem liveAt0_4_C : ∀ t : Fin cfg0.N, ¬cond0_0 (grid0.coords t) → cond0_1 (grid0.coords t) → cfg0.idle 4 (grid0.coords t) = false := by decide +kernel

/-! ## The memrefs the body is run on -/

/-- One staging buffer of the output window, through which its contents are stated (which of the two does not
    matter for a read of what a covering list of pieces wrote). -/
abbrev VO0_4 : View sig .tc .vmem S512x1 .f32 := (Memref.whole cc0_stg4_0 : Memref sig .tc .vmem S512x1 .f32).view
/-- Each window's current staging memref at point t, as the pipeline passes it to the body, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- Accumulator 0 (of four) as a whole scoped buffer of the kernel's own, and as a view through which its contents are stated. -/
abbrev scM0_0 : Memref sig .tc .vmem S512x1 .f32 := Memref.whole cc0_scratch0
abbrev VS0_0 : View sig .tc .vmem S512x1 .f32 := scM0_0.view
/-- Accumulator 1 (of four) as a whole scoped buffer of the kernel's own, and as a view through which its contents are stated. -/
abbrev scM0_1 : Memref sig .tc .vmem S512x1 .f32 := Memref.whole cc0_scratch1
abbrev VS0_1 : View sig .tc .vmem S512x1 .f32 := scM0_1.view
/-- Accumulator 2 (of four) as a whole scoped buffer of the kernel's own, and as a view through which its contents are stated. -/
abbrev scM0_2 : Memref sig .tc .vmem S512x1 .f32 := Memref.whole cc0_scratch2
abbrev VS0_2 : View sig .tc .vmem S512x1 .f32 := scM0_2.view
/-- Accumulator 3 (of four) as a whole scoped buffer of the kernel's own, and as a view through which its contents are stated. -/
abbrev scM0_3 : Memref sig .tc .vmem S512x1 .f32 := Memref.whole cc0_scratch3
abbrev VS0_3 : View sig .tc .vmem S512x1 .f32 := scM0_3.view

/-- The invariant carried between points, with the four accumulators as memrefs owned at some contents: what the
    body obligation hands a run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.RunA.lean ====
/- The whole body at a point with column block j = 0. Both label loads, the two feature blocks and the output block
   are left as found; each of the four accumulators is read (the value unused), cleared, and then receives the first
   column block's partial sums: two stores each, the later covering the earlier. The output block is not stored. -/
import proofs.«136497_j10256381903181_1_alg».proof.Proof.K.Kit

-- membership of an index in a rectangle of the full extents is decided structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A list of stores into a [512,1] block: what a run leaves in the output block or an accumulator. -/
abbrev Pc := List (View.Piece (Elt F) S512x1 .f32)

-- (the run's term is long: the epilogue of the definition walks it past the default budget)
set_option maxHeartbeats 1000000 in
/-- What the body leaves at j = 0, as lists of pieces (last store first) for the output block (none) and the four
    accumulators, WITH the run: on whole memrefs, the four inputs at their contents, the output block at any contents
    xi4, the accumulators at anything, the body reaches its continuation with the inputs and the output block as they
    were and each accumulator with its pieces written. The piece lists are found by the run itself. -/
noncomputable def kernelRun0_A (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) :
    Σ' (L4 : Pc (F := F)) (LS0 : Pc (F := F)) (LS1 : Pc (F := F)) (LS2 : Pc (F := F)), { LS3 : Pc (F := F) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__rll_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.RunB.lean ====
/- The whole body at a point with column block j = 1 or 2. Nothing is cleared: each accumulator, holding what the
   point before left, is read and receives its sum with this column block's partial sums, one store each. The output
   block is not stored. -/
import proofs.«136497_j10256381903181_1_alg».proof.Proof.K.RunA

-- membership of an index in a rectangle of the full extents is decided structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's term is long: the epilogue of the definition walks it past the default budget)
set_option maxHeartbeats 1000000 in
/-- What the body leaves at j = 1, 2, as lists of pieces for the output block (none) and the four accumulators, WITH
    the run: on whole memrefs, the four inputs at their contents, the output block at any contents xi4, the
    accumulators at what the point before left (xs0 .. xs3), the body reaches its continuation with the inputs and the
    output block as they were and each accumulator with its pieces written. -/
noncomputable def kernelRun0_B (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 : Vec F S512x1 .f32) (xs1 : Vec F S512x1 .f32) (xs2 : Vec F S512x1 .f32) (xs3 : Vec F S512x1 .f32) :
    Σ' (L4 : Pc (F := F)) (LS0 : Pc (F := F)) (LS1 : Pc (F := F)) (LS2 : Pc (F := F)), { LS3 : Pc (F := F) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__rll_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.RunC.lean ====
/- The whole body at a point with column block j = 3. The accumulators are updated as at j = 1, 2, then read back,
   and the row block of the loss (hinge part over its count plus exponential part over its count, each count offset
   by a small constant) is stored into the output block. -/
import proofs.«136497_j10256381903181_1_alg».proof.Proof.K.RunB

-- membership of an index in a rectangle of the full extents is decided structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's term is long: the epilogue of the definition walks it past the default budget)
set_option maxHeartbeats 1000000 in
/-- What the body leaves at j = 3, as lists of pieces for the output block and the four accumulators, WITH the run:
    on whole memrefs, the four inputs at their contents, the output block at anything, the accumulators at what the
    point before left (xs0 .. xs3), the body reaches its continuation with the inputs as they were and the output
    block and each accumulator with its pieces written. -/
noncomputable def kernelRun0_C (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 : Vec F S512x1 .f32) (xs1 : Vec F S512x1 .f32) (xs2 : Vec F S512x1 .f32) (xs3 : Vec F S512x1 .f32) :
    Σ' (L4 : Pc (F := F)) (LS0 : Pc (F := F)) (LS1 : Pc (F := F)) (LS2 : Pc (F := F)), { LS3 : Pc (F := F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__rll_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Hand

end
-- ==== Proof.K.Frame.lean ====
/- The frame of the row-block loss kernel's pipeline, from the three whole-body runs. The grid is 8 x 4 and is walked
   in the order t = 4 * i + j. Four column accumulators of 512 rows are carried from one visit to the next: rebuilt at
   j = 0, added to at every j, and combined into the output column of row block i at j = 3, the only visit that
   stores the output window (idle, and not written back, at the others). Here: what each kind of visit leaves in
   the output's staging buffer and in the accumulators; the accumulation along the 32 positions; the invariant
   between visits; the proof data of the pipeline; the body obligation at every point; and the invariant at the two
   ends of the region. -/
import proofs.«136497_j10256381903181_1_alg».proof.Proof.K.RunC

-- membership of an index in a rectangle of the full extents is decided structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one visit of the body leaves, case by case

The body is visited once per grid point (i, j), i the row block (8 of them), j the column block (4 of them),
in the order t = 4 * i + j. At j = 0 it zeroes the four accumulators (scratch 0..3, each a column of 512 floats)
and adds the point's partial sums to them; at j = 1, 2 it only adds; at j = 3 it adds and then combines the four
accumulators into the output column of row block i. Each run below names, as lists of written rectangles, what the
visit stores into the output's staging buffer and into the four accumulators. Every store is the whole column
[512, 1], so each non-empty list covers its buffer and what the buffer holds afterwards does not depend on what it
held before, nor on which buffer of that shape it is read through. -/

/-- At the first column block of a row (j = 0) the body stores nothing into the output column: the window is idle there and is not
    written back, so nothing ever consults this value (the empty list of stores read back over arbitrary contents). -/
def out0_A_4 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)

/-- At the first column block of a row (j = 0) the stores into accumulator 0 are whole columns, so they cover it. -/
theorem scover0_A_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S512x1.size (by sl_kernel_rfl) y

/-- Accumulator 0 after a visit at the first column block of a row (j = 0): its stores read back. -/
def sout0_A_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)

/-- At the first column block of a row (j = 0) the stores into accumulator 1 are whole columns, so they cover it. -/
theorem scover0_A_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S512x1.size (by sl_kernel_rfl) y

/-- Accumulator 1 after a visit at the first column block of a row (j = 0): its stores read back. -/
def sout0_A_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.1)

/-- At the first column block of a row (j = 0) the stores into accumulator 2 are whole columns, so they cover it. -/
theorem scover0_A_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.1 S512x1.size (by sl_kernel_rfl) y

/-- Accumulator 2 after a visit at the first column block of a row (j = 0): its stores read back. -/
def sout0_A_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3).2.2.2.1)

/-- At the first column block of a row (j = 0) the stores into accumulator 3 are whole columns, so they cover it. -/
theorem scover0_A_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.2.1 S512x1.size (by sl_kernel_rfl) y

/-- Accumulator 3 after a visit at the first column block of a row (j = 0): its stores read back. -/
def sout0_A_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 x0 x1 x2 x3).2.2.2.2.1)

/-- At a middle column block (j = 1 or 2) the body stores nothing into the output column: the window is idle there and is not
    written back, so nothing ever consults this value (the empty list of stores read back over arbitrary contents). -/
def out0_B_4 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1 xs2 xs3).1)

/-- At a middle column block (j = 1 or 2) the stores into accumulator 0 are whole columns, so they cover it. -/
theorem scover0_B_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.1 S512x1.size (by sl_kernel_rfl) y

/-- Accumulator 0 after a visit at a middle column block (j = 1 or 2): its stores read back. -/
def sout0_B_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1 xs2 xs3).2.1)

/-- At a middle column block (j = 1 or 2) the stores into accumulator 1 are whole columns, so they cover it. -/
theorem scover0_B_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.1 S512x1.size (by sl_kernel_rfl) y

/-- Accumulator 1 after a visit at a middle column block (j = 1 or 2): its stores read back. -/
def sout0_B_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.1)

/-- At a middle column block (j = 1 or 2) the stores into accumulator 2 are whole columns, so they cover it. -/
theorem scover0_B_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1 S512x1.size (by sl_kernel_rfl) y

/-- Accumulator 2 after a visit at a middle column block (j = 1 or 2): its stores read back. -/
def sout0_B_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1)

/-- At a middle column block (j = 1 or 2) the stores into accumulator 3 are whole columns, so they cover it. -/
theorem scover0_B_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1 S512x1.size (by sl_kernel_rfl) y

/-- Accumulator 3 after a visit at a middle column block (j = 1 or 2): its stores read back. -/
def sout0_B_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1)

/-- At the last column block of a row (j = 3) the body stores the whole output column once: the stores cover it. -/
theorem cover0_C_4 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).1 S512x1.size (by sl_kernel_rfl) y

/-- The output column of row block i as the last column block leaves it: its stores read back. -/
def out0_C_4 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1 xs2 xs3).1)

/-- At the last column block of a row (j = 3) the stores into accumulator 0 are whole columns, so they cover it. -/
theorem scover0_C_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.1 S512x1.size (by sl_kernel_rfl) y

/-- Accumulator 0 after a visit at the last column block of a row (j = 3): its stores read back. -/
def sout0_C_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1 xs2 xs3).2.1)

/-- At the last column block of a row (j = 3) the stores into accumulator 1 are whole columns, so they cover it. -/
theorem scover0_C_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.1 S512x1.size (by sl_kernel_rfl) y

/-- Accumulator 1 after a visit at the last column block of a row (j = 3): its stores read back. -/
def sout0_C_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.1)

/-- At the last column block of a row (j = 3) the stores into accumulator 2 are whole columns, so they cover it. -/
theorem scover0_C_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1 S512x1.size (by sl_kernel_rfl) y

/-- Accumulator 2 after a visit at the last column block of a row (j = 3): its stores read back. -/
def sout0_C_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1)

/-- At the last column block of a row (j = 3) the stores into accumulator 3 are whole columns, so they cover it. -/
theorem scover0_C_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1 S512x1.size (by sl_kernel_rfl) y

/-- Accumulator 3 after a visit at the last column block of a row (j = 3): its stores read back. -/
def sout0_C_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1)

/-! ## The accumulation along the grid -/

/-- What the output's staging buffer (first component) and the four accumulators (the other four, in order) hold
    after the visit at position n of the grid, by recursion on n: position n is the point (n / 4, n % 4); at
    n % 4 = 0 a row starts and the accumulators are rebuilt from nothing, otherwise the visit reads what position
    n - 1 left in them. No position has n % 4 = 0 and n % 4 = 3 at once. -/
def outsAt0 (c : Dev nD) : (n : ℕ) → n < cfg0.N → Vec F S512x1 .f32 × Vec F S512x1 .f32 × Vec F S512x1 .f32 × Vec F S512x1 .f32 × Vec F S512x1 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩),
      sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
      sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- At a position that starts a row (t % 4 = 0): what the zero-and-add visit leaves. -/
theorem outsAt0_A (c : Dev nD) (t : Fin cfg0.N) (h0 : t.val % 4 = 0) (h1 : ¬t.val % 4 = 3) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a position inside a row (t % 4 = 1 or 2): what the adding visit leaves, over what position t - 1 left. -/
theorem outsAt0_B (c : Dev nD) (t : Fin cfg0.N) (h0 : ¬t.val % 4 = 0) (h1 : ¬t.val % 4 = 3) :
    outsAt0 m c t.val t.isLt =
      (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact absurd (Nat.zero_mod _) h0
  | succ n => exact (dif_neg h0).trans ((dif_neg h1).trans rfl)

/-- At a position that ends a row (t % 4 = 3): what the add-and-combine visit leaves, over what position t - 1 left. -/
theorem outsAt0_C (c : Dev nD) (t : Fin cfg0.N) (h0 : ¬t.val % 4 = 0) (h1 : t.val % 4 = 3) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact absurd (Nat.zero_mod _) h0
  | succ n => exact (dif_neg h0).trans ((dif_pos h1).trans rfl)

/-! ## The invariant between visits -/

/-- Before position n: at n = 0 the four accumulators hold anything; at n + 1 each holds what position n left in it.
    The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The proof data of the pipeline -/

/-- On core c: the five windowed arrays as the region finds them; after the visit at t each input's staging buffer
    still holds the block the point reads (the row block of the features, the column block of the features, the
    row labels, the column labels) and the output's holds the first component of the accumulation; between visits
    the invariant above; nothing owed. The features array is read through two windows, so each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

/-- The invariant at the start of the visit at t, restated at the position's number. -/
theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds the point's block when the body is called, fetched at this point or
    kept from an earlier one (the row block and the row labels are fetched only when a row starts). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation at a generic point -/

/-- What the body is called with at t: the invariant, what the core owes, and the five current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The visit at any point t. Each input's staging buffer holds the point's block; t % 4 says which of the three
    visits this is; the output's buffer is handed over at what it held (and handed back so) when the visit does not
    store it, at anything when it does; the invariant hands over the four accumulators, at anything when a row
    starts and at what position t - 1 left otherwise, and takes them back at what this visit leaves, which their
    covering stores determine; the core owes nothing before or after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- a row starts
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1 sout0_A_2 sout0_A_3; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- a row ends
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1 sout0_C_2 sout0_C_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, ⟨%e4, H4⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _ _ _ _)
    · -- inside a row
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1 sout0_B_2 sout0_B_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation of the pipeline: the visit's triple at every point, the five windows conjoined one by one. -/
theorem body_obligation (c : Dev nD) : BodyObligation (dats (F := F) m 0 c) (defs₀ (F := F)) Variants.none () Set.univ := fun t => by
  rw [bigSep_W0, bigSep_W0]
  exact sound_body m c t

/-! ## The invariant at the region's ends -/

/-- What the launch hands the region is the invariant before the first position. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any position but the first the invariant gives the launch's back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- In particular after the last of the 32 positions. -/
theorem hout (c : Dev nD) : (dats m 0 c).Φ (Fin.last cfg0.N) ⊢ Pipeline.ΦA spec0 c :=
  Phi_out m c _ (by rw [Fin.val_last]; have : cfg0.N = 32 := N_0; omega)

/-- The core owes nothing at any position. -/
theorem howed (c : Dev nD) (t : Fin (cfg0.N + 1)) : (dats m 0 c).owed t = 0 := rfl

end Cert.Kernel.Hand

end
-- ==== Proof.K.Shares.lean ====
/- How the feature array's full share is dealt between the two windows that read it. The kernel is handed the feature
   array twice: window 0 stages its row blocks, window 1 its column blocks. Both only read, so each holds HALF of the
   array's share (the left and the right half of the full share, which compose to it), while the two label arrays and
   the output column are each held whole by their one window. Here: the four distinct buffers behind the five windows,
   each whole at the full share, are exactly the five windows' holdings at those shares, at any contents. -/
import proofs.«136497_j10256381903181_1_alg».proof.Proof.Gen.Kernel.Launch
import Idealize.ShloMosaic.Lib.Pipeline.Launch
import Idealize.ShloMosaic.Rules.PointsTo

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.Kernel Cert.Kernel.Gen

variable {F : FTy → Type} [FloatOps F]

local notation "𝕄" => MT nD τ sig Unit (Elt F) ℕ (UR sig nD τ) ℕ

/-- The buffers behind the five windows' arrays are four: the features (twice), the two label broadcasts, the output. -/
theorem arrRef_image : Finset.univ.image (Pipeline.arrRef spec0) = [main_arg0, main_v0, main_v1, main_v2].toFinset := by decide

/-- The four buffers whole at the full share at contents Gc are the five windows' holdings at Gc: the features' full
    share is its left half (window 0) with its right half (window 1). -/
theorem arrBufs_arrays (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Gc : (b : Ref sig .tc) → Buf (Elt F) ((c : Thread nD τ).loc b)) :
    (Pipeline.arrBufs spec0 c Gc : sProp 𝕄) ⊣⊢ dat.arrays (fun w => Gc (Pipeline.arrRef spec0 w)) := by
  have hs0 : dat.share 0 = fullShare.left := by unfold Dat.share; rw [if_neg (by decide), hq0]
  have hs1 : dat.share 1 = fullShare.right := by unfold Dat.share; rw [if_neg (by decide), hq1]
  have hs2 : dat.share 2 = fullShare := by unfold Dat.share; rw [if_neg (by decide), hq2]
  have hs3 : dat.share 3 = fullShare := by unfold Dat.share; rw [if_neg (by decide), hq3]
  have hs4 : dat.share 4 = fullShare := by unfold Dat.share; rw [if_pos (by decide)]
  have hL : (Pipeline.arrBufs spec0 c Gc : sProp 𝕄)
      = iprop((((c : Thread nD τ).loc main_arg0) ↦{fullShare} Gc main_arg0) ∗ (((c : Thread nD τ).loc main_v0) ↦{fullShare} Gc main_v0)
          ∗ (((c : Thread nD τ).loc main_v1) ↦{fullShare} Gc main_v1) ∗ (((c : Thread nD τ).loc main_v2) ↦{fullShare} Gc main_v2)) := by
    unfold Pipeline.arrBufs
    exact Idealize.SL.BI.bigSep_eq_bigSepL_of_eq _ arrRef_image (by decide) _
  have hR : (dat.arrays (fun w => Gc (Pipeline.arrRef spec0 w)) : sProp 𝕄)
      = iprop((((c : Thread nD τ).loc main_arg0) ↦{fullShare.left} Gc main_arg0) ∗ (((c : Thread nD τ).loc main_arg0) ↦{fullShare.right} Gc main_arg0)
          ∗ (((c : Thread nD τ).loc main_v0) ↦{fullShare} Gc main_v0)
          ∗ (((c : Thread nD τ).loc main_v1) ↦{fullShare} Gc main_v1) ∗ (((c : Thread nD τ).loc main_v2) ↦{fullShare} Gc main_v2)) := by
    unfold Dat.arrays
    rw [bigSep_W0, hs0, hs1, hs2, hs3, hs4]
    have e (w : Fin 5) : (cfg0.win w).arr.view.set = Finset.univ := (arr_whole0 w).set_eq_univ
    repeat (first | rw [e 0] | rw [e 1] | rw [e 2] | rw [e 3] | rw [e 4])
  rw [hL, hR]
  have hsh := pointsTo_share (Ix := Unit) (Name := ℕ) (U := UR sig nD τ) (Lvl := ℕ) (ℓ := (c : Thread nD τ).loc main_arg0)
    (I := Finset.univ) (f := Gc main_arg0) (PosShare.mem_left_op_right fullShare)
  constructor
  · iintro ⟨Ha, H0, H1, H2⟩
    ihave Ha' := hsh.1 $$ Ha
    icases Ha' with ⟨HL, HR⟩
    isplitl [HL]; · iexact HL
    isplitl [HR]; · iexact HR
    isplitl [H0]; · iexact H0
    isplitl [H1]; · iexact H1
    iexact H2
  · iintro ⟨HL, HR, H0, H1, H2⟩
    isplitl [HL HR]
    · iapply hsh.2; isplitl [HL]; · iexact HL
      iexact HR
    isplitl [H0]; · iexact H0
    isplitl [H1]; · iexact H1
    iexact H2

end Cert.Kernel.Hand

end
-- ==== Proof.LibSharedFrame.lean ====
/-
  A frame run for a pipeline whose INPUT windows may stage blocks of ONE array, in a program whose @main goes on
  after the region with straight lines of host operations.

  When two input windows read the same array, the array's full share is dealt among them at the region's entry
  (each window holds its part of the share, enough to read) and the arrays are no longer pairwise distinct buffers.
  The lines after the region, however, run over WHOLE buffers at the full share. So at the region's exit the parts of
  every shared array are put together again (every window on it ends holding the same contents), the lines are run
  over all the unscoped buffers as the lines before the region are, and the shares are dealt out once more so that
  the final state can be read window by window. How shares are joined and dealt is the certificate's to say (three
  entailments about the distinct buffers behind the arrays); everything else is proved here once.
-/
import Idealize.ShloMosaic.Lib.Pipeline.FrameSuffix

noncomputable section

namespace Cert.Lib.SharedFrame

open Idealize.ShloMosaic Idealize.ShloMosaic.TcCoe
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.Pipeline Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

omit [Fintype P] [DecidableEq P] [∀ e, Nonempty (Val e)] in
/-- At the region's exit: the windows' holdings of the arrays, joined into whole buffers at contents G (hjoin), and
    the bypassing buffers at the entry contents V₀, with which G agrees on them (hG), are ALL the unscoped buffers
    held at G. -/
theorem exit_held (c : Dev nD) (hun : ∀ w, (arrRef (cfg).spec w).isScoped = false) (V₀ G : Valuation τ sig Val)
    (hG : ∀ b ∈ restRefs sig (cfg).spec, G (Proc.devRef .tc b) = V₀ (Proc.devRef .tc b))
    (hjoin : (dats p c).arrays ((dats p c).arrAt · (cfg).N) ⊢ (arrBufs (cfg).spec c (fun b => G (Proc.devRef .tc b)) : sProp 𝕄)) :
    iprop((dats p c).arrays ((dats p c).arrAt · (cfg).N) ∗ unscopedRestP Prefetch.none (cfg).spec c (fun b => V₀ (Proc.devRef .tc b)))
      ⊢ (StableHlo.held (c.tc : Thread nD τ) (ucRefs τ sig) G : sProp 𝕄) := by
  classical
  have hZ : (unscopedRestP Prefetch.none (cfg).spec c (fun b => V₀ (Proc.devRef .tc b)) : sProp 𝕄)
      = unscopedRest (cfg).spec c (fun b => G (Proc.devRef .tc b)) := by
    rw [unscopedRestP_none]; unfold unscopedRest
    exact bigSep_congr fun b hb => by beta_reduce; rw [hG b hb]
  rw [hZ, ← unscopedBufs_held (Ix := Unit) (Name := ℕ) (U := UR sig nD τ) (Lvl := ℕ) c G, unscopedBufs_split₀ cfgs p hun c]
  exact sep_mono hjoin .rfl

omit [Fintype P] [DecidableEq P] [∀ e, Nonempty (Val e)] in
/-- After the lines: all the unscoped buffers held at contents W are the windows' holdings of the arrays, dealt out
    again (hresplit), and the bypassing buffers at W. -/
theorem held_exit (c : Dev nD) (hun : ∀ w, (arrRef (cfg).spec w).isScoped = false) (W : Valuation τ sig Val)
    (hresplit : (arrBufs (cfg).spec c (fun b => W (Proc.devRef .tc b)) : sProp 𝕄) ⊢ (dats p c).arrays ((dats p c).arrAt · (cfg).N)) :
    (StableHlo.held (c.tc : Thread nD τ) (ucRefs τ sig) W : sProp 𝕄)
      ⊢ iprop((dats p c).arrays ((dats p c).arrAt · (cfg).N) ∗ unscopedRestP Prefetch.none (cfg).spec c (fun b => W (Proc.devRef .tc b))) := by
  classical
  rw [unscopedRestP_none, ← unscopedBufs_held (Ix := Unit) (Name := ℕ) (U := UR sig nD τ) (Lvl := ℕ) c W, unscopedBufs_split₀ cfgs p hun c]
  exact sep_mono hresplit .rfl

omit [Fintype P] [DecidableEq P] [∀ e, Nonempty (Val e)] in
/-- THE LINES AFTER THE REGION when windows share arrays: from the region's exit (the boundary, the windows' holdings
    of the arrays, the bypassing buffers at V₀) the lines run over all the unscoped buffers, held at G, and hand back
    the windows' holdings and the bypassing buffers at the lines' contents from G. -/
theorem tail_seqs_shared (c : Dev nD) (hun : ∀ w, (arrRef (cfg).spec w).isScoped = false) (V₀ G : Valuation τ sig Val)
    (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hG : ∀ b ∈ restRefs sig (cfg).spec, G (Proc.devRef .tc b) = V₀ (Proc.devRef .tc b))
    (hjoin : (dats p c).arrays ((dats p c).arrAt · (cfg).N) ⊢ (arrBufs (cfg).spec c (fun b => G (Proc.devRef .tc b)) : sProp 𝕄))
    (hresplit : (arrBufs (cfg).spec c (fun b => StableHlo.after opss.flatten G (Proc.devRef .tc b)) : sProp 𝕄)
      ⊢ (dats p c).arrays ((dats p c).arrAt · (cfg).N))
    (Q' : PUnit → sProp 𝕄) :
    iprop((iprop((dats p c).arrays ((dats p c).arrAt · (cfg).N)
              ∗ unscopedRestP Prefetch.none (cfg).spec c (fun b => StableHlo.after opss.flatten G (Proc.devRef .tc b))) -∗ Q' ⟨⟩)
        ∗ boundary (c.tc : Thread nD τ) ∗ (dats p c).arrays ((dats p c).arrAt · (cfg).N)
        ∗ unscopedRestP Prefetch.none (cfg).spec c (fun b => V₀ (Proc.devRef .tc b)))
      ⊢ wp frame (wpE 𝔻 𝕍 (c.tc : Thread nD τ) none) Set.univ (chain (opss.map StableHlo.seq)) Q' := by
  rw [← List.append_nil (opss.map StableHlo.seq)]
  iintro ⟨Hk, Hb, Ha⟩
  ihave Hh := (exit_held cfgs dats p c hun V₀ G hG hjoin) $$ Ha
  iapply (wp_seqs_then (fun q => Cfg.toPCfg (Val := Val) (cfgs q)) defs₀ 𝒱₀ c (ucRefs τ sig) [] opss
    (fun ops ho op h => sub_ucRefs op (hsub ops ho op h)) hfresh G) $$ [Hb Hh]
  · isplitl [Hb] <;> iassumption
  iintro ⟨-, Hh⟩
  rw [chain_nil, wp_pure]
  imodintro
  iapply Hk
  iapply (held_exit cfgs dats p c hun _ hresplit) $$ Hh

/-- THE FRAME RUN for a pipeline whose input windows may share arrays (the layout facts but for the arrays'
    distinctness: hw), in an @main that continues after the region with the host lines opss (hmain). The certificate
    says how the distinct buffers behind the arrays, whole at the entry contents V₀, are dealt among the windows
    (hsplit); how the windows' holdings at the region's exit join into whole buffers again, at contents G (hjoin) that
    agree with V₀ on the buffers bypassing the region (hG); and how the buffers at the lines' contents from G are dealt
    among the windows once more (hresplit). The final state: every window's array at what the library computes from the
    proof data, every bypassing buffer at the lines' contents from G. -/
theorem θ_run_frame_shared_around_track
    (hcell : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (G : Dev nD → Valuation τ sig Val)
    (hG : ∀ c, ∀ b ∈ restRefs sig (cfg).spec, G c (Proc.devRef .tc b) = V₀ c (Proc.devRef .tc b))
    (hsplit : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => G c (Proc.devRef .tc b)) : sProp 𝕄))
    (hresplit : ∀ c, (arrBufs (cfg).spec c (fun b => StableHlo.after opss.flatten (G c) (Proc.devRef .tc b)) : sProp 𝕄)
      ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g)
      (FramePost cfgs dats p (fun c b => StableHlo.after opss.flatten (G c) (Proc.devRef .tc b))) := by
  classical
  exact θ_run_region_pf_tail (fun q => Cfg.toPCfg (Val := Val) (cfgs q)) (fun q => (cfgs q).toPCfg_adm) dats () hcell p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (G c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => tail_seqs_shared cfgs dats p defs₀ 𝒱₀ c hw.arr_unscoped (V₀ c) (G c) opss hsub hfresh (hG c)
      (hjoin c) (hresplit c) Q')
    (QY := fun c s => ∀ b ∈ restRefsP sig Prefetch.none (cfg).spec,
      s.mem ((c.tc : Thread nD τ).loc b) = StableHlo.after opss.flatten (G c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b)
        (fun b => StableHlo.after opss.flatten (G c) (Proc.devRef .tc b)) s')
      isplitl [HU] <;> iassumption)
    (hQ := fun s h c => ⟨(h c).1, rest_of_restP Prefetch.none (cfg).spec (fun k => k.elim0) c
      (fun b => StableHlo.after opss.flatten (G c) (Proc.devRef .tc b)) s (fun k => k.elim0) (h c).2.1 (h c).2.2⟩)

end Cert.Lib.SharedFrame

end
-- ==== Proof.K.Run.lean ====
/- The launch of the row-block loss program: the broadcasts of the labels, the kernel region, and the mean of the
   output column. The region's five windows stand on four arrays, the feature array being read through two of them, so
   the launch is the one for windows that share an array: the feature array's full share is dealt by halves to the two
   windows at the region's entry, put together at its exit (where the output column holds what the write-backs left and
   everything else is as at the entry), and the four operations that follow run over whole buffers. Read at the
   result, the run ends with the mean of the output column the proof data compute; the two arguments end as they began. -/
import proofs.«136497_j10256381903181_1_alg».proof.Proof.K.Frame
import proofs.«136497_j10256381903181_1_alg».proof.Proof.K.Shares
import proofs.«136497_j10256381903181_1_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- What the program returns from the output column o the region leaves: the sum of its 4096 entries (from zero)
    divided by 4096. -/
def tail (o : FVec F S4096x1 .f32) : FVec F S_ .f32 :=
  Host.divf (Host.reduceAdd o (constant S_ .f32 0x00000000#32) reducesTo_S4096x1_S_d0_1 h_S_) (constant S_ .f32 0x45800000#32)

/-- Core c's buffer contents at the region's exit: as at its entry, but the output column at what the write-backs
    left. (The inputs are never written; no other buffer passes through the region.) -/
def exitV (c : Dev nD) : Valuation τ sig (Elt F) := by
  classical exact Function.update (V0 m c) (Proc.devRef .tc main_v2) ((dats m 0 c).arrAt 4 cfg0.N)

/-- At every window's array they are what the library computes from the proof data: an input's entry contents, the
    output's after the last write-back. -/
theorem exitV_arr (c : Dev nD) (w : Fin 5) :
    exitV m c (Proc.devRef .tc (Pipeline.arrRef spec0 w)) = (dats m 0 c).arrAt w cfg0.N := by
  classical
  by_cases h : w = 4
  · subst h; exact Function.update_self ..
  · have hne : Pipeline.arrRef spec0 w ≠ main_v2 := by revert h; revert w; decide
    have hi : (cfg0.win w).isOut = false := by revert h; revert w; decide
    unfold exitV
    rw [Function.update_of_ne (StableHlo.devRef_ne_of_ne hne), (dats m 0 c).arrAt_in w hi cfg0.N, A_eq]

/-- At a buffer that bypasses the region they are the entry contents. -/
theorem exitV_rest (c : Dev nD) (b : Ref sig .tc) (hb : b ∈ Pipeline.restRefs sig spec0) :
    exitV m c (Proc.devRef .tc b) = V0 m c (Proc.devRef .tc b) := by
  classical
  unfold exitV
  exact Function.update_of_ne (StableHlo.devRef_ne_of_ne fun e =>
    (Finset.mem_sdiff.mp hb).2 (Finset.mem_image.mpr ⟨4, Finset.mem_univ _, e.symm⟩)) _ _

/-- The four operations after the region touch TensorCore references only, -/
theorem after_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  subst hops
  exact (List.forall_iff_forall_mem.mp hostOps1_sub) op hop
/-- allocate nothing, -/
theorem after_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- (as one line they are the list itself) -/
theorem flatten_ops1 : (List.flatten [hostOps1] : List (HloOp τ sig (Elt F))) = hostOps1 := List.append_nil _
/-- and write no window's array (each writes its own result: zero, the sum, 4096, the quotient). -/
theorem after_keeps (w : Fin 5) : ∀ op ∈ (List.flatten [hostOps1] : List (HloOp τ sig (Elt F))),
    Proc.devRef .tc (Pipeline.arrRef spec0 w) ∉ op.writes := by
  intro op hop
  rw [flatten_ops1] at hop
  simp only [hostOps1, List.mem_cons, List.mem_nil_iff, or_false] at hop
  rcases hop with rfl | rfl | rfl | rfl
  all_goals fin_cases w <;> simp only [StableHlo.nullary_writes, StableHlo.binary_writes, Finset.mem_singleton] <;> exact StableHlo.devRef_ne_of_ne (by decide)

/-- So after them every window's array is still what the region left. -/
theorem after_arr (c : Dev nD) (w : Fin 5) :
    StableHlo.after (List.flatten [hostOps1]) (exitV m c) (Proc.devRef .tc (Pipeline.arrRef spec0 w)) = (dats m 0 c).arrAt w cfg0.N := by
  rw [StableHlo.after_of_forall_not_mem _ _ (after_keeps w), exitV_arr]

/-- THE RUN: the launch theorem for windows sharing an array, at this program. The features' share is dealt to
    windows 0 and 1 by halves at the entry, joined at the exit, and dealt again after the last four operations. -/
theorem run_post : θ_run defs (onTc (τ := τ) (main (F := F))) ⟨m, fun _ => 0, ρ⟩
    (Pipeline.FramePost cfgs (dats m) 0 (fun c b => StableHlo.after (List.flatten [hostOps1]) (exitV m c) (Proc.devRef .tc b))) :=
  Cert.Lib.SharedFrame.θ_run_frame_shared_around_track cfgs (dats m) (0 : Fin 1) defs₀ Variants.none
    cellOf_inj winFacts₀0 block_pos0 arr_whole0 stage_whole0 m ρ main
    (hbody := fun c => (body_obligation m c).loose) (howed := fun c t => howed m c t)
    (V₀ := V0 m) (opss := [hostOps1]) (hsub := after_sub) (hfresh := after_fresh) (hmain := hmain m Variants.none)
    (G := exitV m) (hG := fun c b hb => exitV_rest m c b hb)
    (hsplit := fun c => by
      have h := (arrBufs_arrays c (dats m 0 c) rfl rfl rfl rfl (fun b => V0 m c (Proc.devRef .tc b))).1
      rw [show (fun w => (dats m 0 c).arrAt w 0) = fun w => V0 m c (Proc.devRef .tc (Pipeline.arrRef spec0 w)) from
        funext fun w => A_eq m c w]
      exact h)
    (hjoin := fun c => by
      have h := (arrBufs_arrays c (dats m 0 c) rfl rfl rfl rfl (fun b => exitV m c (Proc.devRef .tc b))).2
      rw [show (fun w => (dats m 0 c).arrAt w cfg0.N) = fun w => exitV m c (Proc.devRef .tc (Pipeline.arrRef spec0 w)) from
        funext fun w => (exitV_arr m c w).symm]
      exact h)
    (hresplit := fun c => by
      have h := (arrBufs_arrays c (dats m 0 c) rfl rfl rfl rfl
        (fun b => StableHlo.after (List.flatten [hostOps1]) (exitV m c) (Proc.devRef .tc b))).1
      rw [show (fun w => (dats m 0 c).arrAt w cfg0.N)
          = fun w => StableHlo.after (List.flatten [hostOps1]) (exitV m c) (Proc.devRef .tc (Pipeline.arrRef spec0 w)) from
        funext fun w => (after_arr m c w).symm]
      exact h)
    (hin := hin m) (hout := hout m)

/-- What the last four operations leave in the result buffer: the mean of the output column the region left. -/
theorem after_main_v4 (c : Dev nD) :
    StableHlo.after (List.flatten [hostOps1]) (exitV m c) (Proc.devRef .tc main_v4) = tail ((dats m 0 c).arrAt 4 cfg0.N) := by
  have h2 := exitV_arr m c 4
  rw [flatten_ops1]
  show StableHlo.after hostOps1 (exitV m c) (Proc.devRef .tc main_v4) = _
  after_results
  unfold tail
  rw [show exitV m c (Proc.devRef .tc main_v2) = (dats m 0 c).arrAt 4 cfg0.N from h2]

/-- The label vector bypasses the region and no operation after it writes it. -/
theorem after_main_arg1 (c : Dev nD) :
    StableHlo.after (List.flatten [hostOps1]) (exitV m c) (Proc.devRef .tc main_arg1) = m ((c : Thread nD τ).loc main_arg1) := by
  rw [flatten_ops1]
  show StableHlo.after hostOps1 (exitV m c) (Proc.devRef .tc main_arg1) = _
  after_results
  rw [exitV_rest m c main_arg1 (Pipeline.mem_restRefs_of main_arg1 rfl (by decide))]
  exact V_main_arg1 m c

/-- THE LAUNCH, read at the three buffers the claims speak of: the result is the mean of the output column the
    proof data compute, and the two arguments end as they began. -/
theorem run_main : θ_run defs (onTc (τ := τ) (main (F := F))) ⟨m, fun _ => 0, ρ⟩ (fun r => ∀ c : Dev nD,
      r.2.mem ((c.tc : Thread nD τ).loc main_v4) = tail ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨harr, hrest⟩ := h c
    refine ⟨?_, ?_, ?_⟩
    · rw [hrest main_v4 (Pipeline.mem_restRefs_of main_v4 rfl (by decide))]; exact after_main_v4 m c
    · have h0 := harr 0
      rw [Pipeline.Dat.arrAt_in _ 0 rfl, A_eq] at h0
      exact h0.trans (V_main_arg0 m c)
    · rw [hrest main_arg1 (Pipeline.mem_restRefs_of main_arg1 rfl (by decide))]; exact after_main_arg1 m c) (run_post m ρ)

end Cert.Kernel.Hand

end
-- ==== Proof.KI.Kit.lean ====
/- What the three whole-body runs of the row-block loss kernel and its frame share. The grid is 8 x 4, point
   t = 4 * i + j: at row block i the kernel walks the four column blocks j, adding into four column accumulators of
   512 rows; it clears them at j = 0 and divides them into the output block at j = 3. Here: the contents the region
   finds (the two label broadcasts applied to the arguments), each input window's block as a function of the point,
   the closed forms of the two branch conditions (j = 0, j = 3), where the output window is idle, and the names of
   the staging and accumulator memrefs the runs are stated over. -/
import proofs.«136497_j10256381903181_1_alg».proof.Proof.Gen.KernelIdeal.Launch
import proofs.«136497_j10256381903181_1_alg».proof.Proof.Gen.KernelIdeal.Skeleton
import proofs.«136497_j10256381903181_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of the full extents is decided structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered, as a valuation: the arguments with the two label
    broadcasts (a column [4096,1] and a row [1,4096] of the label vector) written. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The two broadcasts allocate nothing. -/
theorem hostOps0_fresh : (hostOps0 : List (HloOp τ sig (Elt F))).Forall fun op => op.fresh = ∅ := by
  simp only [List.Forall]; repeat' constructor

/-- Nor do the four operations after the region (zero, the sum over rows, 4096, the quotient). -/
theorem hostOps1_fresh : (hostOps1 : List (HloOp τ sig (Elt F))).Forall fun op => op.fresh = ∅ := by
  simp only [List.Forall]; repeat' constructor

/-- The program is the broadcasts, the region, and the mean: it reduces to the region entered at V and continued
    by the four later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The broadcasts leave the feature matrix as the caller gave it. -/
theorem V_main_arg0 (c : Dev nD) : V m c main_arg0 = m ((c : Thread nD τ).loc main_arg0) := by
  show StableHlo.after hostOps0 (fun b => m (c, b)) (Proc.devRef .tc main_arg0) = _
  after_results

/-- And the label vector. -/
theorem V_main_arg1 (c : Dev nD) : V m c main_arg1 = m ((c : Thread nD τ).loc main_arg1) := by
  show StableHlo.after hostOps0 (fun b => m (c, b)) (Proc.devRef .tc main_arg1) = _
  after_results

/-- The row labels the region reads are the label vector as a column. -/
theorem V_main_v0 (c : Dev nD) : V m c main_v0
    = (broadcastInDim S4096x1 ![0] bcast_S4096_S4096x1_0 (m ((c : Thread nD τ).loc main_arg1)) : (⟨S4096x1, .i32⟩ : BufTy).Contents (Elt F)) := by
  show StableHlo.after hostOps0 (fun b => m (c, b)) (Proc.devRef .tc main_v0) = _
  after_results

/-- The column labels it reads are the label vector as a row. -/
theorem V_main_v1 (c : Dev nD) : V m c main_v1
    = (broadcastInDim S1x4096 ![1] bcast_S4096_S1x4096_1 (m ((c : Thread nD τ).loc main_arg1)) : (⟨S1x4096, .i32⟩ : BufTy).Contents (Elt F)) := by
  show StableHlo.after hostOps0 (fun b => m (c, b)) (Proc.devRef .tc main_v1) = _
  after_results

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or not:
    the window is an input, never idle and uncut, and the body leaves the block in place (hafter), so an unfetched
    point still sees the block of the last fetch, whose index has not moved. Stated for any proof data whose array
    is the region-entry contents (hA). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or not:
    the window is an input, never idle and uncut, and the body leaves the block in place (hafter), so an unfetched
    point still sees the block of the last fetch, whose index has not moved. Stated for any proof data whose array
    is the region-entry contents (hA). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or not:
    the window is an input, never idle and uncut, and the body leaves the block in place (hafter), so an unfetched
    point still sees the block of the last fetch, whose index has not moved. Stated for any proof data whose array
    is the region-entry contents (hA). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or not:
    the window is an input, never idle and uncut, and the body leaves the block in place (hafter), so an unfetched
    point still sees the block of the last fetch, whose index has not moved. Stated for any proof data whose array
    is the region-entry contents (hA). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The condition under which the body clears the accumulators: the column-block coordinate is 0. -/
abbrev cond0_0 (i : grid0.Coords) : Prop := (Scalar.cmpi .ne (Scalar.extui (Scalar.cmpi .eq (BitVec.ofNat 32 (i 1).val) 0#32)) 0#32) = 1#1
/-- It holds at the points t with t % 4 = 0: decided over the 32 points. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition under which the body writes the output block: the column-block coordinate is 3. -/
abbrev cond0_1 (i : grid0.Coords) : Prop := k0_cond2 i = 1#1
/-- It holds at the points t with t % 4 = 3: decided over the 32 points. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At j = 0 the output window is idle: the body stores nothing into it. -/
theorem idleAt0_4_A : ∀ t : Fin cfg0.N, cond0_0 (grid0.coords t) → ¬cond0_1 (grid0.coords t) → cfg0.idle 4 (grid0.coords t) = true := by decide +kernel
/-- And its block is not written back there. -/
theorem noFlush0_4_A : ∀ t : Fin cfg0.N, cond0_0 (grid0.coords t) → ¬cond0_1 (grid0.coords t) → (cfg0.win 4).flush t = false := by decide +kernel
/-- At j = 1, 2 likewise: idle, -/
theorem idleAt0_4_B : ∀ t : Fin cfg0.N, ¬cond0_0 (grid0.coords t) → ¬cond0_1 (grid0.coords t) → cfg0.idle 4 (grid0.coords t) = true := by decide +kernel
/-- and not written back. -/
theorem noFlush0_4_B : ∀ t : Fin cfg0.N, ¬cond0_0 (grid0.coords t) → ¬cond0_1 (grid0.coords t) → (cfg0.win 4).flush t = false := by decide +kernel
/-- At j = 3 the output window is live: the body stores the block. -/
theorem liveAt0_4_C : ∀ t : Fin cfg0.N, ¬cond0_0 (grid0.coords t) → cond0_1 (grid0.coords t) → cfg0.idle 4 (grid0.coords t) = false := by decide +kernel

/-! ## The memrefs the body is run on -/

/-- One staging buffer of the output window, through which its contents are stated (which of the two does not
    matter for a read of what a covering list of pieces wrote). -/
abbrev VO0_4 : View sig .tc .vmem S512x1 .f32 := (Memref.whole cc0_stg4_0 : Memref sig .tc .vmem S512x1 .f32).view
/-- Each window's current staging memref at point t, as the pipeline passes it to the body, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- Accumulator 0 (of four) as a whole scoped buffer of the kernel's own, and as a view through which its contents are stated. -/
abbrev scM0_0 : Memref sig .tc .vmem S512x1 .f32 := Memref.whole cc0_scratch0
abbrev VS0_0 : View sig .tc .vmem S512x1 .f32 := scM0_0.view
/-- Accumulator 1 (of four) as a whole scoped buffer of the kernel's own, and as a view through which its contents are stated. -/
abbrev scM0_1 : Memref sig .tc .vmem S512x1 .f32 := Memref.whole cc0_scratch1
abbrev VS0_1 : View sig .tc .vmem S512x1 .f32 := scM0_1.view
/-- Accumulator 2 (of four) as a whole scoped buffer of the kernel's own, and as a view through which its contents are stated. -/
abbrev scM0_2 : Memref sig .tc .vmem S512x1 .f32 := Memref.whole cc0_scratch2
abbrev VS0_2 : View sig .tc .vmem S512x1 .f32 := scM0_2.view
/-- Accumulator 3 (of four) as a whole scoped buffer of the kernel's own, and as a view through which its contents are stated. -/
abbrev scM0_3 : Memref sig .tc .vmem S512x1 .f32 := Memref.whole cc0_scratch3
abbrev VS0_3 : View sig .tc .vmem S512x1 .f32 := scM0_3.view

/-- The invariant carried between points, with the four accumulators as memrefs owned at some contents: what the
    body obligation hands a run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunA.lean ====
/- The whole body at a point with column block j = 0. Both label loads, the two feature blocks and the output block
   are left as found; each of the four accumulators is read (the value unused), cleared, and then receives the first
   column block's partial sums: two stores each, the later covering the earlier. The output block is not stored. -/
import proofs.«136497_j10256381903181_1_alg».proof.Proof.KI.Kit

-- membership of an index in a rectangle of the full extents is decided structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A list of stores into a [512,1] block: what a run leaves in the output block or an accumulator. -/
abbrev Pc := List (View.Piece (Elt F) S512x1 .f32)

-- (the run's term is long: the epilogue of the definition walks it past the default budget)
set_option maxHeartbeats 1000000 in
/-- What the body leaves at j = 0, as lists of pieces (last store first) for the output block (none) and the four
    accumulators, WITH the run: on whole memrefs, the four inputs at their contents, the output block at any contents
    xi4, the accumulators at anything, the body reaches its continuation with the inputs and the output block as they
    were and each accumulator with its pieces written. The piece lists are found by the run itself. -/
noncomputable def kernelRun0_A (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) :
    Σ' (L4 : Pc (F := F)) (LS0 : Pc (F := F)) (LS1 : Pc (F := F)) (LS2 : Pc (F := F)), { LS3 : Pc (F := F) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__rll_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/- The whole body at a point with column block j = 1 or 2. Nothing is cleared: each accumulator, holding what the
   point before left, is read and receives its sum with this column block's partial sums, one store each. The output
   block is not stored. -/
import proofs.«136497_j10256381903181_1_alg».proof.Proof.KI.RunA

-- membership of an index in a rectangle of the full extents is decided structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's term is long: the epilogue of the definition walks it past the default budget)
set_option maxHeartbeats 1000000 in
/-- What the body leaves at j = 1, 2, as lists of pieces for the output block (none) and the four accumulators, WITH
    the run: on whole memrefs, the four inputs at their contents, the output block at any contents xi4, the
    accumulators at what the point before left (xs0 .. xs3), the body reaches its continuation with the inputs and the
    output block as they were and each accumulator with its pieces written. -/
noncomputable def kernelRun0_B (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 : Vec F S512x1 .f32) (xs1 : Vec F S512x1 .f32) (xs2 : Vec F S512x1 .f32) (xs3 : Vec F S512x1 .f32) :
    Σ' (L4 : Pc (F := F)) (LS0 : Pc (F := F)) (LS1 : Pc (F := F)) (LS2 : Pc (F := F)), { LS3 : Pc (F := F) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__rll_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
/- The whole body at a point with column block j = 3. The accumulators are updated as at j = 1, 2, then read back,
   and the row block of the loss (hinge part over its count plus exponential part over its count, each count offset
   by a small constant) is stored into the output block. -/
import proofs.«136497_j10256381903181_1_alg».proof.Proof.KI.RunB

-- membership of an index in a rectangle of the full extents is decided structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's term is long: the epilogue of the definition walks it past the default budget)
set_option maxHeartbeats 1000000 in
/-- What the body leaves at j = 3, as lists of pieces for the output block and the four accumulators, WITH the run:
    on whole memrefs, the four inputs at their contents, the output block at anything, the accumulators at what the
    point before left (xs0 .. xs3), the body reaches its continuation with the inputs as they were and the output
    block and each accumulator with its pieces written. -/
noncomputable def kernelRun0_C (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 : Vec F S512x1 .f32) (xs1 : Vec F S512x1 .f32) (xs2 : Vec F S512x1 .f32) (xs3 : Vec F S512x1 .f32) :
    Σ' (L4 : Pc (F := F)) (LS0 : Pc (F := F)) (LS1 : Pc (F := F)) (LS2 : Pc (F := F)), { LS3 : Pc (F := F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__rll_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__rll_kernel_eq_skeleton]; unfold cc0__rll_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.KI.Frame.lean ====
/- The frame of the row-block loss kernel's pipeline, from the three whole-body runs. The grid is 8 x 4 and is walked
   in the order t = 4 * i + j. Four column accumulators of 512 rows are carried from one visit to the next: rebuilt at
   j = 0, added to at every j, and combined into the output column of row block i at j = 3, the only visit that
   stores the output window (idle, and not written back, at the others). Here: what each kind of visit leaves in
   the output's staging buffer and in the accumulators; the accumulation along the 32 positions; the invariant
   between visits; the proof data of the pipeline; the body obligation at every point; and the invariant at the two
   ends of the region. -/
import proofs.«136497_j10256381903181_1_alg».proof.Proof.KI.RunC

-- membership of an index in a rectangle of the full extents is decided structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one visit of the body leaves, case by case

The body is visited once per grid point (i, j), i the row block (8 of them), j the column block (4 of them),
in the order t = 4 * i + j. At j = 0 it zeroes the four accumulators (scratch 0..3, each a column of 512 floats)
and adds the point's partial sums to them; at j = 1, 2 it only adds; at j = 3 it adds and then combines the four
accumulators into the output column of row block i. Each run below names, as lists of written rectangles, what the
visit stores into the output's staging buffer and into the four accumulators. Every store is the whole column
[512, 1], so each non-empty list covers its buffer and what the buffer holds afterwards does not depend on what it
held before, nor on which buffer of that shape it is read through. -/

/-- At the first column block of a row (j = 0) the body stores nothing into the output column: the window is idle there and is not
    written back, so nothing ever consults this value (the empty list of stores read back over arbitrary contents). -/
def out0_A_4 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)

/-- At the first column block of a row (j = 0) the stores into accumulator 0 are whole columns, so they cover it. -/
theorem scover0_A_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S512x1.size (by sl_kernel_rfl) y

/-- Accumulator 0 after a visit at the first column block of a row (j = 0): its stores read back. -/
def sout0_A_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)

/-- At the first column block of a row (j = 0) the stores into accumulator 1 are whole columns, so they cover it. -/
theorem scover0_A_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S512x1.size (by sl_kernel_rfl) y

/-- Accumulator 1 after a visit at the first column block of a row (j = 0): its stores read back. -/
def sout0_A_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.1)

/-- At the first column block of a row (j = 0) the stores into accumulator 2 are whole columns, so they cover it. -/
theorem scover0_A_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.1 S512x1.size (by sl_kernel_rfl) y

/-- Accumulator 2 after a visit at the first column block of a row (j = 0): its stores read back. -/
def sout0_A_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3).2.2.2.1)

/-- At the first column block of a row (j = 0) the stores into accumulator 3 are whole columns, so they cover it. -/
theorem scover0_A_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.2.1 S512x1.size (by sl_kernel_rfl) y

/-- Accumulator 3 after a visit at the first column block of a row (j = 0): its stores read back. -/
def sout0_A_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 x0 x1 x2 x3).2.2.2.2.1)

/-- At a middle column block (j = 1 or 2) the body stores nothing into the output column: the window is idle there and is not
    written back, so nothing ever consults this value (the empty list of stores read back over arbitrary contents). -/
def out0_B_4 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1 xs2 xs3).1)

/-- At a middle column block (j = 1 or 2) the stores into accumulator 0 are whole columns, so they cover it. -/
theorem scover0_B_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.1 S512x1.size (by sl_kernel_rfl) y

/-- Accumulator 0 after a visit at a middle column block (j = 1 or 2): its stores read back. -/
def sout0_B_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1 xs2 xs3).2.1)

/-- At a middle column block (j = 1 or 2) the stores into accumulator 1 are whole columns, so they cover it. -/
theorem scover0_B_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.1 S512x1.size (by sl_kernel_rfl) y

/-- Accumulator 1 after a visit at a middle column block (j = 1 or 2): its stores read back. -/
def sout0_B_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.1)

/-- At a middle column block (j = 1 or 2) the stores into accumulator 2 are whole columns, so they cover it. -/
theorem scover0_B_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1 S512x1.size (by sl_kernel_rfl) y

/-- Accumulator 2 after a visit at a middle column block (j = 1 or 2): its stores read back. -/
def sout0_B_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1)

/-- At a middle column block (j = 1 or 2) the stores into accumulator 3 are whole columns, so they cover it. -/
theorem scover0_B_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1 S512x1.size (by sl_kernel_rfl) y

/-- Accumulator 3 after a visit at a middle column block (j = 1 or 2): its stores read back. -/
def sout0_B_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1)

/-- At the last column block of a row (j = 3) the body stores the whole output column once: the stores cover it. -/
theorem cover0_C_4 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).1 S512x1.size (by sl_kernel_rfl) y

/-- The output column of row block i as the last column block leaves it: its stores read back. -/
def out0_C_4 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1 xs2 xs3).1)

/-- At the last column block of a row (j = 3) the stores into accumulator 0 are whole columns, so they cover it. -/
theorem scover0_C_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.1 S512x1.size (by sl_kernel_rfl) y

/-- Accumulator 0 after a visit at the last column block of a row (j = 3): its stores read back. -/
def sout0_C_0 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1 xs2 xs3).2.1)

/-- At the last column block of a row (j = 3) the stores into accumulator 1 are whole columns, so they cover it. -/
theorem scover0_C_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.1 S512x1.size (by sl_kernel_rfl) y

/-- Accumulator 1 after a visit at the last column block of a row (j = 3): its stores read back. -/
def sout0_C_1 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.1)

/-- At the last column block of a row (j = 3) the stores into accumulator 2 are whole columns, so they cover it. -/
theorem scover0_C_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1 S512x1.size (by sl_kernel_rfl) y

/-- Accumulator 2 after a visit at the last column block of a row (j = 3): its stores read back. -/
def sout0_C_2 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1)

/-- At the last column block of a row (j = 3) the stores into accumulator 3 are whole columns, so they cover it. -/
theorem scover0_C_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1 S512x1.size (by sl_kernel_rfl) y

/-- Accumulator 3 after a visit at the last column block of a row (j = 3): its stores read back. -/
def sout0_C_3 (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1)

/-! ## The accumulation along the grid -/

/-- What the output's staging buffer (first component) and the four accumulators (the other four, in order) hold
    after the visit at position n of the grid, by recursion on n: position n is the point (n / 4, n % 4); at
    n % 4 = 0 a row starts and the accumulators are rebuilt from nothing, otherwise the visit reads what position
    n - 1 left in them. No position has n % 4 = 0 and n % 4 = 3 at once. -/
def outsAt0 (c : Dev nD) : (n : ℕ) → n < cfg0.N → Vec F S512x1 .f32 × Vec F S512x1 .f32 × Vec F S512x1 .f32 × Vec F S512x1 .f32 × Vec F S512x1 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩),
      sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => absurd ((hcond0_1 ⟨0, hn⟩).mp h) (by show ¬(0 % 4 = 3); decide)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
      sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- At a position that starts a row (t % 4 = 0): what the zero-and-add visit leaves. -/
theorem outsAt0_A (c : Dev nD) (t : Fin cfg0.N) (h0 : t.val % 4 = 0) (h1 : ¬t.val % 4 = 3) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
      sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a position inside a row (t % 4 = 1 or 2): what the adding visit leaves, over what position t - 1 left. -/
theorem outsAt0_B (c : Dev nD) (t : Fin cfg0.N) (h0 : ¬t.val % 4 = 0) (h1 : ¬t.val % 4 = 3) :
    outsAt0 m c t.val t.isLt =
      (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact absurd (Nat.zero_mod _) h0
  | succ n => exact (dif_neg h0).trans ((dif_neg h1).trans rfl)

/-- At a position that ends a row (t % 4 = 3): what the add-and-combine visit leaves, over what position t - 1 left. -/
theorem outsAt0_C (c : Dev nD) (t : Fin cfg0.N) (h0 : ¬t.val % 4 = 0) (h1 : t.val % 4 = 3) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact absurd (Nat.zero_mod _) h0
  | succ n => exact (dif_neg h0).trans ((dif_pos h1).trans rfl)

/-! ## The invariant between visits -/

/-- Before position n: at n = 0 the four accumulators hold anything; at n + 1 each holds what position n left in it.
    The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The proof data of the pipeline -/

/-- On core c: the five windowed arrays as the region finds them; after the visit at t each input's staging buffer
    still holds the block the point reads (the row block of the features, the column block of the features, the
    row labels, the column labels) and the output's holds the first component of the accumulation; between visits
    the invariant above; nothing owed. The features array is read through two windows, so each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

/-- The invariant at the start of the visit at t, restated at the position's number. -/
theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds the point's block when the body is called, fetched at this point or
    kept from an earlier one (the row block and the row labels are fetched only when a row starts). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation at a generic point -/

/-- What the body is called with at t: the invariant, what the core owes, and the five current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The visit at any point t. Each input's staging buffer holds the point's block; t % 4 says which of the three
    visits this is; the output's buffer is handed over at what it held (and handed back so) when the visit does not
    store it, at anything when it does; the invariant hands over the four accumulators, at anything when a row
    starts and at what position t - 1 left otherwise, and takes them back at what this visit leaves, which their
    covering stores determine; the core owes nothing before or after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- a row starts
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1 sout0_A_2 sout0_A_3; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- a row ends
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1 sout0_C_2 sout0_C_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, ⟨%e4, H4⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _ _ _ _)
    · -- inside a row
      rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1 sout0_B_2 sout0_B_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation of the pipeline: the visit's triple at every point, the five windows conjoined one by one. -/
theorem body_obligation (c : Dev nD) : BodyObligation (dats (F := F) m 0 c) (defs₀ (F := F)) Variants.none () Set.univ := fun t => by
  rw [bigSep_W0, bigSep_W0]
  exact sound_body m c t

/-! ## The invariant at the region's ends -/

/-- What the launch hands the region is the invariant before the first position. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any position but the first the invariant gives the launch's back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- In particular after the last of the 32 positions. -/
theorem hout (c : Dev nD) : (dats m 0 c).Φ (Fin.last cfg0.N) ⊢ Pipeline.ΦA spec0 c :=
  Phi_out m c _ (by rw [Fin.val_last]; have : cfg0.N = 32 := N_0; omega)

/-- The core owes nothing at any position. -/
theorem howed (c : Dev nD) (t : Fin (cfg0.N + 1)) : (dats m 0 c).owed t = 0 := rfl

end Cert.KernelIdeal.Hand

end
-- ==== Proof.KI.Shares.lean ====
/- How the feature array's full share is dealt between the two windows that read it. The kernel is handed the feature
   array twice: window 0 stages its row blocks, window 1 its column blocks. Both only read, so each holds HALF of the
   array's share (the left and the right half of the full share, which compose to it), while the two label arrays and
   the output column are each held whole by their one window. Here: the four distinct buffers behind the five windows,
   each whole at the full share, are exactly the five windows' holdings at those shares, at any contents. -/
import proofs.«136497_j10256381903181_1_alg».proof.Proof.Gen.KernelIdeal.Launch
import Idealize.ShloMosaic.Lib.Pipeline.Launch
import Idealize.ShloMosaic.Rules.PointsTo

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal Cert.KernelIdeal.Gen

variable {F : FTy → Type} [FloatOps F]

local notation "𝕄" => MT nD τ sig Unit (Elt F) ℕ (UR sig nD τ) ℕ

/-- The buffers behind the five windows' arrays are four: the features (twice), the two label broadcasts, the output. -/
theorem arrRef_image : Finset.univ.image (Pipeline.arrRef spec0) = [main_arg0, main_v0, main_v1, main_v2].toFinset := by decide

/-- The four buffers whole at the full share at contents Gc are the five windows' holdings at Gc: the features' full
    share is its left half (window 0) with its right half (window 1). -/
theorem arrBufs_arrays (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Gc : (b : Ref sig .tc) → Buf (Elt F) ((c : Thread nD τ).loc b)) :
    (Pipeline.arrBufs spec0 c Gc : sProp 𝕄) ⊣⊢ dat.arrays (fun w => Gc (Pipeline.arrRef spec0 w)) := by
  have hs0 : dat.share 0 = fullShare.left := by unfold Dat.share; rw [if_neg (by decide), hq0]
  have hs1 : dat.share 1 = fullShare.right := by unfold Dat.share; rw [if_neg (by decide), hq1]
  have hs2 : dat.share 2 = fullShare := by unfold Dat.share; rw [if_neg (by decide), hq2]
  have hs3 : dat.share 3 = fullShare := by unfold Dat.share; rw [if_neg (by decide), hq3]
  have hs4 : dat.share 4 = fullShare := by unfold Dat.share; rw [if_pos (by decide)]
  have hL : (Pipeline.arrBufs spec0 c Gc : sProp 𝕄)
      = iprop((((c : Thread nD τ).loc main_arg0) ↦{fullShare} Gc main_arg0) ∗ (((c : Thread nD τ).loc main_v0) ↦{fullShare} Gc main_v0)
          ∗ (((c : Thread nD τ).loc main_v1) ↦{fullShare} Gc main_v1) ∗ (((c : Thread nD τ).loc main_v2) ↦{fullShare} Gc main_v2)) := by
    unfold Pipeline.arrBufs
    exact Idealize.SL.BI.bigSep_eq_bigSepL_of_eq _ arrRef_image (by decide) _
  have hR : (dat.arrays (fun w => Gc (Pipeline.arrRef spec0 w)) : sProp 𝕄)
      = iprop((((c : Thread nD τ).loc main_arg0) ↦{fullShare.left} Gc main_arg0) ∗ (((c : Thread nD τ).loc main_arg0) ↦{fullShare.right} Gc main_arg0)
          ∗ (((c : Thread nD τ).loc main_v0) ↦{fullShare} Gc main_v0)
          ∗ (((c : Thread nD τ).loc main_v1) ↦{fullShare} Gc main_v1) ∗ (((c : Thread nD τ).loc main_v2) ↦{fullShare} Gc main_v2)) := by
    unfold Dat.arrays
    rw [bigSep_W0, hs0, hs1, hs2, hs3, hs4]
    have e (w : Fin 5) : (cfg0.win w).arr.view.set = Finset.univ := (arr_whole0 w).set_eq_univ
    repeat (first | rw [e 0] | rw [e 1] | rw [e 2] | rw [e 3] | rw [e 4])
  rw [hL, hR]
  have hsh := pointsTo_share (Ix := Unit) (Name := ℕ) (U := UR sig nD τ) (Lvl := ℕ) (ℓ := (c : Thread nD τ).loc main_arg0)
    (I := Finset.univ) (f := Gc main_arg0) (PosShare.mem_left_op_right fullShare)
  constructor
  · iintro ⟨Ha, H0, H1, H2⟩
    ihave Ha' := hsh.1 $$ Ha
    icases Ha' with ⟨HL, HR⟩
    isplitl [HL]; · iexact HL
    isplitl [HR]; · iexact HR
    isplitl [H0]; · iexact H0
    isplitl [H1]; · iexact H1
    iexact H2
  · iintro ⟨HL, HR, H0, H1, H2⟩
    isplitl [HL HR]
    · iapply hsh.2; isplitl [HL]; · iexact HL
      iexact HR
    isplitl [H0]; · iexact H0
    isplitl [H1]; · iexact H1
    iexact H2

end Cert.KernelIdeal.Hand

end
-- ==== Proof.KI.Run.lean ====
/- The launch of the row-block loss program: the broadcasts of the labels, the kernel region, and the mean of the
   output column. The region's five windows stand on four arrays, the feature array being read through two of them, so
   the launch is the one for windows that share an array: the feature array's full share is dealt by halves to the two
   windows at the region's entry, put together at its exit (where the output column holds what the write-backs left and
   everything else is as at the entry), and the four operations that follow run over whole buffers. Read at the
   result, the run ends with the mean of the output column the proof data compute; the two arguments end as they began. -/
import proofs.«136497_j10256381903181_1_alg».proof.Proof.KI.Frame
import proofs.«136497_j10256381903181_1_alg».proof.Proof.KI.Shares
import proofs.«136497_j10256381903181_1_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- What the program returns from the output column o the region leaves: the sum of its 4096 entries (from zero)
    divided by 4096. -/
def tail (o : FVec F S4096x1 .f32) : FVec F S_ .f32 :=
  Host.divf (Host.reduceAdd o (constant S_ .f32 0x00000000#32) reducesTo_S4096x1_S_d0_1 h_S_) (constant S_ .f32 0x45800000#32)

/-- Core c's buffer contents at the region's exit: as at its entry, but the output column at what the write-backs
    left. (The inputs are never written; no other buffer passes through the region.) -/
def exitV (c : Dev nD) : Valuation τ sig (Elt F) := by
  classical exact Function.update (V0 m c) (Proc.devRef .tc main_v2) ((dats m 0 c).arrAt 4 cfg0.N)

/-- At every window's array they are what the library computes from the proof data: an input's entry contents, the
    output's after the last write-back. -/
theorem exitV_arr (c : Dev nD) (w : Fin 5) :
    exitV m c (Proc.devRef .tc (Pipeline.arrRef spec0 w)) = (dats m 0 c).arrAt w cfg0.N := by
  classical
  by_cases h : w = 4
  · subst h; exact Function.update_self ..
  · have hne : Pipeline.arrRef spec0 w ≠ main_v2 := by revert h; revert w; decide
    have hi : (cfg0.win w).isOut = false := by revert h; revert w; decide
    unfold exitV
    rw [Function.update_of_ne (StableHlo.devRef_ne_of_ne hne), (dats m 0 c).arrAt_in w hi cfg0.N, A_eq]

/-- At a buffer that bypasses the region they are the entry contents. -/
theorem exitV_rest (c : Dev nD) (b : Ref sig .tc) (hb : b ∈ Pipeline.restRefs sig spec0) :
    exitV m c (Proc.devRef .tc b) = V0 m c (Proc.devRef .tc b) := by
  classical
  unfold exitV
  exact Function.update_of_ne (StableHlo.devRef_ne_of_ne fun e =>
    (Finset.mem_sdiff.mp hb).2 (Finset.mem_image.mpr ⟨4, Finset.mem_univ _, e.symm⟩)) _ _

/-- The four operations after the region touch TensorCore references only, -/
theorem after_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  subst hops
  exact (List.forall_iff_forall_mem.mp hostOps1_sub) op hop
/-- allocate nothing, -/
theorem after_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- (as one line they are the list itself) -/
theorem flatten_ops1 : (List.flatten [hostOps1] : List (HloOp τ sig (Elt F))) = hostOps1 := List.append_nil _
/-- and write no window's array (each writes its own result: zero, the sum, 4096, the quotient). -/
theorem after_keeps (w : Fin 5) : ∀ op ∈ (List.flatten [hostOps1] : List (HloOp τ sig (Elt F))),
    Proc.devRef .tc (Pipeline.arrRef spec0 w) ∉ op.writes := by
  intro op hop
  rw [flatten_ops1] at hop
  simp only [hostOps1, List.mem_cons, List.mem_nil_iff, or_false] at hop
  rcases hop with rfl | rfl | rfl | rfl
  all_goals fin_cases w <;> simp only [StableHlo.nullary_writes, StableHlo.binary_writes, Finset.mem_singleton] <;> exact StableHlo.devRef_ne_of_ne (by decide)

/-- So after them every window's array is still what the region left. -/
theorem after_arr (c : Dev nD) (w : Fin 5) :
    StableHlo.after (List.flatten [hostOps1]) (exitV m c) (Proc.devRef .tc (Pipeline.arrRef spec0 w)) = (dats m 0 c).arrAt w cfg0.N := by
  rw [StableHlo.after_of_forall_not_mem _ _ (after_keeps w), exitV_arr]

/-- THE RUN: the launch theorem for windows sharing an array, at this program. The features' share is dealt to
    windows 0 and 1 by halves at the entry, joined at the exit, and dealt again after the last four operations. -/
theorem run_post : θ_run defs (onTc (τ := τ) (main (F := F))) ⟨m, fun _ => 0, ρ⟩
    (Pipeline.FramePost cfgs (dats m) 0 (fun c b => StableHlo.after (List.flatten [hostOps1]) (exitV m c) (Proc.devRef .tc b))) :=
  Cert.Lib.SharedFrame.θ_run_frame_shared_around_track cfgs (dats m) (0 : Fin 1) defs₀ Variants.none
    cellOf_inj winFacts₀0 block_pos0 arr_whole0 stage_whole0 m ρ main
    (hbody := fun c => (body_obligation m c).loose) (howed := fun c t => howed m c t)
    (V₀ := V0 m) (opss := [hostOps1]) (hsub := after_sub) (hfresh := after_fresh) (hmain := hmain m Variants.none)
    (G := exitV m) (hG := fun c b hb => exitV_rest m c b hb)
    (hsplit := fun c => by
      have h := (arrBufs_arrays c (dats m 0 c) rfl rfl rfl rfl (fun b => V0 m c (Proc.devRef .tc b))).1
      rw [show (fun w => (dats m 0 c).arrAt w 0) = fun w => V0 m c (Proc.devRef .tc (Pipeline.arrRef spec0 w)) from
        funext fun w => A_eq m c w]
      exact h)
    (hjoin := fun c => by
      have h := (arrBufs_arrays c (dats m 0 c) rfl rfl rfl rfl (fun b => exitV m c (Proc.devRef .tc b))).2
      rw [show (fun w => (dats m 0 c).arrAt w cfg0.N) = fun w => exitV m c (Proc.devRef .tc (Pipeline.arrRef spec0 w)) from
        funext fun w => (exitV_arr m c w).symm]
      exact h)
    (hresplit := fun c => by
      have h := (arrBufs_arrays c (dats m 0 c) rfl rfl rfl rfl
        (fun b => StableHlo.after (List.flatten [hostOps1]) (exitV m c) (Proc.devRef .tc b))).1
      rw [show (fun w => (dats m 0 c).arrAt w cfg0.N)
          = fun w => StableHlo.after (List.flatten [hostOps1]) (exitV m c) (Proc.devRef .tc (Pipeline.arrRef spec0 w)) from
        funext fun w => (after_arr m c w).symm]
      exact h)
    (hin := hin m) (hout := hout m)

/-- What the last four operations leave in the result buffer: the mean of the output column the region left. -/
theorem after_main_v4 (c : Dev nD) :
    StableHlo.after (List.flatten [hostOps1]) (exitV m c) (Proc.devRef .tc main_v4) = tail ((dats m 0 c).arrAt 4 cfg0.N) := by
  have h2 := exitV_arr m c 4
  rw [flatten_ops1]
  show StableHlo.after hostOps1 (exitV m c) (Proc.devRef .tc main_v4) = _
  after_results
  unfold tail
  rw [show exitV m c (Proc.devRef .tc main_v2) = (dats m 0 c).arrAt 4 cfg0.N from h2]

/-- The label vector bypasses the region and no operation after it writes it. -/
theorem after_main_arg1 (c : Dev nD) :
    StableHlo.after (List.flatten [hostOps1]) (exitV m c) (Proc.devRef .tc main_arg1) = m ((c : Thread nD τ).loc main_arg1) := by
  rw [flatten_ops1]
  show StableHlo.after hostOps1 (exitV m c) (Proc.devRef .tc main_arg1) = _
  after_results
  rw [exitV_rest m c main_arg1 (Pipeline.mem_restRefs_of main_arg1 rfl (by decide))]
  exact V_main_arg1 m c

/-- THE LAUNCH, read at the three buffers the claims speak of: the result is the mean of the output column the
    proof data compute, and the two arguments end as they began. -/
theorem run_main : θ_run defs (onTc (τ := τ) (main (F := F))) ⟨m, fun _ => 0, ρ⟩ (fun r => ∀ c : Dev nD,
      r.2.mem ((c.tc : Thread nD τ).loc main_v4) = tail ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨harr, hrest⟩ := h c
    refine ⟨?_, ?_, ?_⟩
    · rw [hrest main_v4 (Pipeline.mem_restRefs_of main_v4 rfl (by decide))]; exact after_main_v4 m c
    · have h0 := harr 0
      rw [Pipeline.Dat.arrAt_in _ 0 rfl, A_eq] at h0
      exact h0.trans (V_main_arg0 m c)
    · rw [hrest main_arg1 (Pipeline.mem_restRefs_of main_arg1 rfl (by decide))]; exact after_main_arg1 m c) (run_post m ρ)

end Cert.KernelIdeal.Hand

end
-- ==== Proof.Spec.lean ====
/-
  The ranked-list loss as ONE function of the feature matrix and the label vector, over the extended reals.

  For rows R, C of the 4096 × 512 feature matrix X:
    sq R      = Σ_k X[R,k]²                      the squared norm of row R
    gram R C  = Σ_k X[R,k]·X[C,k]                the Gram entry
    dist R C  = sqrt (max ε₁₂ ((sq R + sq C) − 2·gram R C))
  a pair (R, C) is POSITIVE when the labels agree and R ≠ C, NEGATIVE when the labels differ; per row the loss is
    Σ_C [pos] max (dist − 0.8) 0  /  (#pos + ε₅)   +   Σ_C (1.2 − dist)·w  /  (Σ_C w + ε₅),
    w = [neg ∧ dist < 1.2] exp (10·(1.2 − dist)),
  and the result is the mean of the row losses. Every float literal stays the binary word both programs print; no literal
  is ever evaluated except the zero word.
-/
import Idealize.ShloMosaic.PureOps.Ideal
import Idealize.ShloMosaic.PureOps.Ideal.Laws
import Idealize.ShloMosaic.Lib.ValueIdx

noncomputable section

namespace Cert.Rll

open Idealize.ShloMosaic

/-- The feature matrix and the labels, as plain functions of row and column. -/
abbrev Feats := Fin 4096 → Fin 512 → EReal
abbrev Labels := Fin 4096 → BitVec 32

variable (X : Feats) (Lb : Labels)

/-- The literals, as the words both programs print. -/
abbrev zeroW : EReal := Ideal.ofBits .f32 0x00000000#32
abbrev twoW : EReal := Ideal.ofBits .f32 0x40000000#32
abbrev epsD : EReal := Ideal.ofBits .f32 0x2B8CBCCC#32
abbrev shiftW : EReal := Ideal.ofBits .f32 0xBF4CCCCD#32
abbrev alphaW : EReal := Ideal.ofBits .f32 0x3F99999A#32
abbrev tvalW : EReal := Ideal.ofBits .f32 0x41200000#32
abbrev epsN : EReal := Ideal.ofBits .f32 0x3727C5AC#32
abbrev nW : EReal := Ideal.ofBits .f32 0x45800000#32

/-- The squared norm of row R. -/
def sq (R : Fin 4096) : EReal := ∑ k : Fin 512, X R k * X R k
/-- The Gram entry of rows R and C. -/
def gram (R C : Fin 4096) : EReal := ∑ k : Fin 512, X R k * X C k
/-- The clamped Euclidean distance of rows R and C. -/
def dist (R C : Fin 4096) : EReal := Ideal.sqrt (max epsD ((sq X R + sq X C) - twoW * gram X R C))

/-- The labels of R and C agree. -/
def same (R C : Fin 4096) : BitVec 1 := IntOp.cmpi .eq (Lb R) (Lb C)
/-- R and C are the same row. -/
def eye (R C : Fin 4096) : BitVec 1 := if R = C then 1#1 else 0#1
/-- A positive pair: equal labels, distinct rows. -/
def isPos (R C : Fin 4096) : BitVec 1 := same Lb R C &&& (eye R C ^^^ 1#1)
/-- A negative pair: different labels. -/
def isNeg (R C : Fin 4096) : BitVec 1 := same Lb R C ^^^ 1#1

/-- The positive pair's hinge term. -/
def apTerm (R C : Fin 4096) : EReal := Scalar.select (isPos Lb R C) (max (dist X R C + shiftW) zeroW) zeroW
/-- One for a positive pair, zero otherwise. -/
def cntTerm (R C : Fin 4096) : EReal := ((((isPos Lb R C).setWidth 32).toInt : ℝ) : EReal)
/-- The negative pair's exponential weight, for pairs closer than the margin. -/
def wTerm (R C : Fin 4096) : EReal :=
  Scalar.select (isNeg Lb R C &&& Ideal.cmp .olt (dist X R C) alphaW) (Ideal.exp (tvalW * (alphaW - dist X R C))) zeroW
/-- The weighted negative term. -/
def anTerm (R C : Fin 4096) : EReal := (alphaW - dist X R C) * wTerm X Lb R C

/-- The four row sums. -/
def apSum (R : Fin 4096) : EReal := ∑ C : Fin 4096, apTerm X Lb R C
def cntSum (R : Fin 4096) : EReal := ∑ C : Fin 4096, cntTerm Lb R C
def anSum (R : Fin 4096) : EReal := ∑ C : Fin 4096, anTerm X Lb R C
def wSum (R : Fin 4096) : EReal := ∑ C : Fin 4096, wTerm X Lb R C

/-- The loss of row R. -/
def rowLoss (R : Fin 4096) : EReal :=
  Ideal.div (apSum X Lb R) (cntSum Lb R + epsN) + Ideal.div (anSum X Lb R) (wSum X Lb R + epsN)

/-- The mean of the row losses. -/
def loss : EReal := Ideal.div (∑ R : Fin 4096, rowLoss X Lb R) nW

/-! ## The same sums taken a tile of 1024 columns at a time -/

/-- Column c of column tile j. -/
def col (j : Fin 4) (c : Fin 1024) : Fin 4096 := ⟨j.val * 1024 + c.val, by have := j.isLt; have := c.isLt; omega⟩
/-- Row r of row tile i. -/
def row (i : Fin 8) (r : Fin 512) : Fin 4096 := ⟨i.val * 512 + r.val, by have := i.isLt; have := r.isLt; omega⟩

/-- A row sum accumulated tile by tile from zero, after n column tiles: what the kernel's running sums hold. -/
def acc (f : Fin 4096 → EReal) : (n : ℕ) → n ≤ 4 → EReal
  | 0, _ => 0
  | n + 1, h => acc f n (Nat.le_of_succ_le h) + ∑ c : Fin 1024, f (col ⟨n, h⟩ c)

/-- Four tiles make the row. -/
theorem acc_four (f : Fin 4096 → EReal) : acc f 4 (le_refl 4) = ∑ C : Fin 4096, f C := by
  -- (tile, column in tile) ↦ column is a bijection of Fin 4 × Fin 1024 with Fin 4096
  have hbij : Function.Bijective (fun p : Fin 4 × Fin 1024 => col p.1 p.2) := by
    constructor
    · rintro ⟨j, c⟩ ⟨j', c'⟩ h
      have h' : j.val * 1024 + c.val = j'.val * 1024 + c'.val := congrArg Fin.val h
      have := c.isLt
      have := c'.isLt
      refine Prod.ext (Fin.ext ?_) (Fin.ext ?_)
      · show j.val = j'.val
        omega
      · show c.val = c'.val
        omega
    · intro C
      have := C.isLt
      refine ⟨(⟨C.val / 1024, by omega⟩, ⟨C.val % 1024, by omega⟩), Fin.ext ?_⟩
      show C.val / 1024 * 1024 + C.val % 1024 = C.val
      omega
  calc acc f 4 (le_refl 4)
      = ∑ j : Fin 4, ∑ c : Fin 1024, f (col j c) := by
        rw [Fin.sum_univ_four]
        simp only [acc, zero_add]
        rfl
    _ = ∑ p : Fin 4 × Fin 1024, f (col p.1 p.2) := (Fintype.sum_prod_type' (fun j c => f (col j c))).symm
    _ = ∑ C : Fin 4096, f C :=
        Fintype.sum_bijective (fun p : Fin 4 × Fin 1024 => col p.1 p.2) hbij _ _ (fun _ => rfl)

/-- Every row is a row of a tile. -/
theorem sum_rows (g : Fin 4096 → EReal) : ∑ R : Fin 4096, g R = ∑ i : Fin 8, ∑ r : Fin 512, g (row i r) := by
  -- (tile, row in tile) ↦ row is a bijection of Fin 8 × Fin 512 with Fin 4096
  have hbij : Function.Bijective (fun p : Fin 8 × Fin 512 => row p.1 p.2) := by
    constructor
    · rintro ⟨i, r⟩ ⟨i', r'⟩ h
      have h' : i.val * 512 + r.val = i'.val * 512 + r'.val := congrArg Fin.val h
      have := r.isLt
      have := r'.isLt
      refine Prod.ext (Fin.ext ?_) (Fin.ext ?_)
      · show i.val = i'.val
        omega
      · show r.val = r'.val
        omega
    · intro R
      have := R.isLt
      refine ⟨(⟨R.val / 512, by omega⟩, ⟨R.val % 512, by omega⟩), Fin.ext ?_⟩
      show R.val / 512 * 512 + R.val % 512 = R.val
      omega
  calc ∑ R : Fin 4096, g R
      = ∑ p : Fin 8 × Fin 512, g (row p.1 p.2) :=
        (Fintype.sum_bijective (fun p : Fin 8 × Fin 512 => row p.1 p.2) hbij _ _ (fun _ => rfl)).symm
    _ = ∑ i : Fin 8, ∑ r : Fin 512, g (row i r) := Fintype.sum_prod_type' (fun i r => g (row i r))

end Cert.Rll

end
-- ==== Proof.KI.Value.Blocks.lean ====
/- The four input blocks of the row-block loss kernel at a grid point, as entries of the feature matrix X and the
   label vector. At point t = 4 i + j the kernel sees rows 512 i .. 512 i + 511 of X (its "row" samples), rows
   1024 j .. 1024 j + 1023 of X (its "column" samples), the labels of the row samples as a column [512,1] and the
   labels of the column samples as a row [1,1024]; the two label arrays are the label vector broadcast by the host
   before the region. A block's coordinate on an axis is the block index times the block size plus the coordinate
   inside the block; the block indices are decided once over the 32 points. -/
import proofs.«136497_j10256381903181_1_alg».proof.Proof.KI.Kit
import proofs.«136497_j10256381903181_1_alg».proof.Proof.Spec
import Idealize.ShloMosaic.Lib.ValueIdx
import Idealize.ShloMosaic.Lib.Pipeline.Value

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ)

/-- The feature matrix the caller gave, by row and column. -/
def featsOf (c : Dev nD) : Cert.Rll.Feats := fun R k => m ((c.tc : Thread nD τ).loc main_arg0) (ix2 R k)
/-- The label vector the caller gave. -/
def labelsOf (c : Dev nD) : Cert.Rll.Labels := fun R => m ((c.tc : Thread nD τ).loc main_arg1) (ix1 R)

/-- Point t is row block t / 4 and column block t % 4. -/
theorem coords_val : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The five windows' block indices at point t: the row windows (features, labels, output) follow t / 4 on axis 0,
    the column windows follow t % 4 (the features on axis 0, the label row on axis 1); the other axis stays at 0. -/
theorem index_val : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-- Window 0's block: entry (r, k) is X at row r of row tile t / 4. -/
theorem rowFeats_apply (c : Dev nD) (t : Fin cfg0.N) (ti : Fin 8) (hti : t.val / 4 = ti.val) (r : Fin 512) (k : Fin 512) :
    (iblk m c 0 t : Vec Ideal S512x512 .f32) (ix2 r k) = featsOf m c (Cert.Rll.row ti r) k := by
  obtain ⟨e0, e1, -⟩ := index_val t
  unfold iblk featsOf
  rw [View.read_apply]
  show V m c main_arg0 _ = m ((c.tc : Thread nD τ).loc main_arg0) _
  rw [V_main_arg0]
  refine congrArg _ (funext fun a => Fin.ext ?_)
  match a with
  | ⟨0, _⟩ => show win0_0.index t (0 : Fin 2) * 512 + 1 * r.val = ti.val * 512 + r.val; rw [e0, hti]; omega
  | ⟨1, _⟩ => show win0_0.index t (1 : Fin 2) * 512 + 1 * k.val = k.val; rw [e1]; omega

/-- Window 1's block: entry (cc, k) is X at column sample cc of column tile t % 4. -/
theorem colFeats_apply (c : Dev nD) (t : Fin cfg0.N) (tj : Fin 4) (htj : t.val % 4 = tj.val) (cc : Fin 1024) (k : Fin 512) :
    (iblk m c 1 t : Vec Ideal S1024x512 .f32) (ix2 cc k) = featsOf m c (Cert.Rll.col tj cc) k := by
  obtain ⟨-, -, e0, e1, -⟩ := index_val t
  unfold iblk featsOf
  rw [View.read_apply]
  show V m c main_arg0 _ = m ((c.tc : Thread nD τ).loc main_arg0) _
  rw [V_main_arg0]
  refine congrArg _ (funext fun a => Fin.ext ?_)
  match a with
  | ⟨0, _⟩ => show win0_1.index t (0 : Fin 2) * 1024 + 1 * cc.val = tj.val * 1024 + cc.val; rw [e0, htj]; omega
  | ⟨1, _⟩ => show win0_1.index t (1 : Fin 2) * 512 + 1 * k.val = k.val; rw [e1]; omega

/-- The label column the host broadcast, read at row R: the label of R. -/
theorem labelCol_apply (c : Dev nD) (R : Fin 4096) (z : Fin 1) :
    (V m c main_v0 : S4096x1.Idx → BitVec 32) (ix2 R z) = labelsOf m c R := by
  rw [V_main_v0]
  refine broadcastInDim_apply ![0] bcast_S4096_S4096x1_0 _ (ix2 R z) (ix1 R) fun a => ?_
  match a with
  | ⟨0, _⟩ => rfl

/-- The label row the host broadcast, read at column C: the label of C. -/
theorem labelRow_apply (c : Dev nD) (z : Fin 1) (C : Fin 4096) :
    (V m c main_v1 : S1x4096.Idx → BitVec 32) (ix2 z C) = labelsOf m c C := by
  rw [V_main_v1]
  refine broadcastInDim_apply ![1] bcast_S4096_S1x4096_1 _ (ix2 z C) (ix1 C) fun a => ?_
  match a with
  | ⟨0, _⟩ => rfl

/-- Window 2's block: entry (r, 0) is the label of row r of row tile t / 4. -/
theorem rowLabels_apply (c : Dev nD) (t : Fin cfg0.N) (ti : Fin 8) (hti : t.val / 4 = ti.val) (r : Fin 512) :
    (iblk m c 2 t : Vec Ideal S512x1 .i32) (ix2 r 0) = labelsOf m c (Cert.Rll.row ti r) := by
  obtain ⟨-, -, -, -, e0, e1, -⟩ := index_val t
  unfold iblk
  rw [View.read_apply]
  show (V m c main_v0 : S4096x1.Idx → BitVec 32) _ = _
  refine Eq.trans (congrArg _ (funext fun a => Fin.ext ?_)) (labelCol_apply m c (Cert.Rll.row ti r) 0)
  match a with
  | ⟨0, _⟩ => show win0_2.index t (0 : Fin 2) * 512 + 1 * r.val = ti.val * 512 + r.val; rw [e0, hti]; omega
  | ⟨1, _⟩ => show win0_2.index t (1 : Fin 2) * 1 + 1 * 0 = 0; rw [e1]

/-- Window 3's block: entry (0, cc) is the label of column sample cc of column tile t % 4. -/
theorem colLabels_apply (c : Dev nD) (t : Fin cfg0.N) (tj : Fin 4) (htj : t.val % 4 = tj.val) (cc : Fin 1024) :
    (iblk m c 3 t : Vec Ideal S1x1024 .i32) (ix2 0 cc) = labelsOf m c (Cert.Rll.col tj cc) := by
  obtain ⟨-, -, -, -, -, -, e0, e1, -⟩ := index_val t
  unfold iblk
  rw [View.read_apply]
  show (V m c main_v1 : S1x4096.Idx → BitVec 32) _ = _
  refine Eq.trans (congrArg _ (funext fun a => Fin.ext ?_)) (labelRow_apply m c 0 (Cert.Rll.col tj cc))
  match a with
  | ⟨0, _⟩ => show win0_3.index t (0 : Fin 2) * 1 + 1 * 0 = 0; rw [e0]
  | ⟨1, _⟩ => show win0_3.index t (1 : Fin 2) * 1024 + 1 * cc.val = tj.val * 1024 + cc.val; rw [e1, htj]; omega

end Cert.KernelIdeal.Hand

end
-- ==== Proof.SpecLaws.lean ====
/-
  Small laws of bits, 32-bit words and finite sums used when the two programs' index and mask arithmetic is read
  as the loss's: the diagonal test on absolute and on tiled indices (numbers below 4096 never wrap a 32-bit word), the
  complement of a bit, and the count of set bits of a mask taken as a sum of words and as a sum of extended reals.
-/
import proofs.«136497_j10256381903181_1_alg».proof.Proof.Spec
import Mathlib.Data.BitVec
import Idealize.ShloMosaic.Lib.StableHlo.Predicate

noncomputable section

namespace Cert.Rll

open Idealize.ShloMosaic

/-! ## Bits -/

/-- The complement of a bit is the bit flipped by one. -/
theorem not_eq_xor_one (b : BitVec 1) : ~~~b = b ^^^ 1#1 := by
  rcases BitVec.eq_zero_or_eq_one b with rfl | rfl <;> decide

/-- A bit is one or zero. -/
theorem bit_ne_one_iff (b : BitVec 1) : b ≠ 1#1 ↔ b = 0#1 := by
  rcases BitVec.eq_zero_or_eq_one b with rfl | rfl <;> decide

/-- A widened bit read signed: one or zero. -/
theorem toInt_setWidth_bit (b : BitVec 1) : (b.setWidth 32).toInt = if b = 1#1 then 1 else 0 := by
  rcases BitVec.eq_zero_or_eq_one b with rfl | rfl <;> decide

/-- A widened bit read signed is its unsigned value. -/
theorem toInt_setWidth_bit_eq_toNat (b : BitVec 1) : (b.setWidth 32).toInt = ((b.setWidth 32).toNat : ℤ) := by
  rcases BitVec.eq_zero_or_eq_one b with rfl | rfl <;> decide

/-- A widened bit is at most one. -/
theorem toNat_setWidth_bit_le (b : BitVec 1) : (b.setWidth 32).toNat ≤ 1 := by
  rcases BitVec.eq_zero_or_eq_one b with rfl | rfl <;> decide

/-! ## Words of small numbers -/

/-- Two numbers below 2³² are equal exactly when their words are. -/
theorem ofNat_eq_ofNat_iff {a b : ℕ} (ha : a < 2 ^ 32) (hb : b < 2 ^ 32) :
    BitVec.ofNat 32 a = BitVec.ofNat 32 b ↔ a = b := by
  constructor
  · intro h
    have h' := congrArg BitVec.toNat h
    simp only [BitVec.toNat_ofNat] at h'
    rwa [Nat.mod_eq_of_lt ha, Nat.mod_eq_of_lt hb] at h'
  · rintro rfl
    rfl

/-- The equality test of the words of two numbers below 2³² is the equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  by_cases h : a = b
  · subst h
    rw [if_pos rfl]
    exact StableHlo.Predicate.cmpi_eq_iff.2 rfl
  · rw [if_neg h]
    have hne : IntOp.cmpi .eq (BitVec.ofNat 32 a) (BitVec.ofNat 32 b) ≠ 1#1 := fun e =>
      h ((ofNat_eq_ofNat_iff ha hb).1 (StableHlo.Predicate.cmpi_eq_iff.1 e))
    exact (bit_ne_one_iff _).1 hne

/-- The diagonal test on two row numbers, as an equality test of numbers. -/
theorem eye_eq (R C : Fin 4096) : eye R C = if R.val = C.val then 1#1 else 0#1 := by
  unfold eye
  by_cases h : R = C
  · rw [if_pos h, if_pos (congrArg Fin.val h)]
  · rw [if_neg h, if_neg (fun e => h (Fin.ext e))]

/-- The reference's diagonal test: row index plus zero against column index. -/
theorem eye_host (R C : Fin 4096) :
    IntOp.cmpi .eq (IntOp.addi (BitVec.ofNat 32 R.val) 0#32) (BitVec.ofNat 32 C.val) = Cert.Rll.eye R C := by
  have hR := R.isLt
  have hC := C.isLt
  rw [show IntOp.addi (BitVec.ofNat 32 R.val) 0#32 = BitVec.ofNat 32 R.val from BitVec.add_zero _,
    cmpi_eq_ofNat (by omega) (by omega), eye_eq]

/-- Row r of row tile i, in words: the tile's base plus the offset does not wrap. -/
theorem row_word (i : Fin 8) (r : Fin 512) :
    IntOp.addi (Scalar.muli (BitVec.ofNat 32 i.val) 512#32) (BitVec.ofNat 32 r.val) = BitVec.ofNat 32 (row i r).val := by
  show BitVec.ofNat 32 i.val * BitVec.ofNat 32 512 + BitVec.ofNat 32 r.val = BitVec.ofNat 32 (i.val * 512 + r.val)
  rw [BitVec.ofNat_add, BitVec.ofNat_mul]

/-- Column c of column tile j, in words. -/
theorem col_word (j : Fin 4) (c : Fin 1024) :
    IntOp.addi (Scalar.muli (BitVec.ofNat 32 j.val) 1024#32) (BitVec.ofNat 32 c.val) = BitVec.ofNat 32 (col j c).val := by
  show BitVec.ofNat 32 j.val * BitVec.ofNat 32 1024 + BitVec.ofNat 32 c.val = BitVec.ofNat 32 (j.val * 1024 + c.val)
  rw [BitVec.ofNat_add, BitVec.ofNat_mul]

/-- The kernel's diagonal test on tiled indices is the diagonal test on the absolute row and column. -/
theorem eye_tile (i : Fin 8) (j : Fin 4) (r : Fin 512) (c : Fin 1024) :
    IntOp.cmpi .eq (IntOp.addi (Scalar.muli (BitVec.ofNat 32 i.val) 512#32) (BitVec.ofNat 32 r.val)) (IntOp.addi (Scalar.muli (BitVec.ofNat 32 j.val) 1024#32) (BitVec.ofNat 32 c.val)) = Cert.Rll.eye (Cert.Rll.row i r) (Cert.Rll.col j c) := by
  have hR := (row i r).isLt
  have hC := (col j c).isLt
  rw [row_word, col_word, cmpi_eq_ofNat (by omega) (by omega), eye_eq]

/-! ## Sums -/

/-- The embedding of the reals in the extended reals carries finite sums to finite sums. -/
theorem coe_real_sum {ι : Type} (S : Finset ι) (f : ι → ℝ) :
    ((∑ i ∈ S, f i : ℝ) : EReal) = ∑ i ∈ S, ((f i : ℝ) : EReal) := by
  induction S using Finset.cons_induction with
  | empty => simp
  | cons a S ha ih => rw [Finset.sum_cons, Finset.sum_cons, EReal.coe_add, ih]

/-- A sum of words whose values add up below 2³² does not wrap: its value is the sum of the values. -/
theorem toNat_sum_of_lt {ι : Type} (S : Finset ι) (f : ι → BitVec 32) (h : ∑ i ∈ S, (f i).toNat < 2 ^ 32) :
    (∑ i ∈ S, f i).toNat = ∑ i ∈ S, (f i).toNat := by
  induction S using Finset.cons_induction with
  | empty => rfl
  | cons a S ha ih =>
    rw [Finset.sum_cons] at h
    rw [Finset.sum_cons, Finset.sum_cons, BitVec.toNat_add, ih (by omega)]
    exact Nat.mod_eq_of_lt (by omega)

/-- A set fold of word addition from zero is the sum of the words. -/
theorem fold_addi_eq_sum {ι : Type} (S : Finset ι) (f : ι → BitVec 32) :
    S.fold IntOp.addi 0#32 f = ∑ i ∈ S, f i := rfl

/-- The values of at most n widened bits add up to at most n. -/
theorem sum_bits_le {n : ℕ} (g : Fin n → BitVec 1) : ∑ k : Fin n, ((g k).setWidth 32).toNat ≤ n := by
  calc ∑ k : Fin n, ((g k).setWidth 32).toNat ≤ ∑ _k : Fin n, 1 := Finset.sum_le_sum (fun k _ => toNat_setWidth_bit_le (g k))
    _ = n := by simp

/-- A sum of at most 4096 widened bits does not wrap in 32 bits, and its signed value is the sum of the bits' signed
    values, in the extended reals. -/
theorem toInt_sum_bits {n : ℕ} (hn : n ≤ 4096) (g : Fin n → BitVec 1) : (((∑ k : Fin n, (g k).setWidth 32 : BitVec 32).toInt : ℝ) : EReal) = ∑ k : Fin n, ((((g k).setWidth 32).toInt : ℝ) : EReal) := by
  have hle := sum_bits_le g
  have htn : (∑ k : Fin n, (g k).setWidth 32 : BitVec 32).toNat = ∑ k : Fin n, ((g k).setWidth 32).toNat :=
    toNat_sum_of_lt Finset.univ (fun k => (g k).setWidth 32) (by omega)
  have hti : ((∑ k : Fin n, (g k).setWidth 32 : BitVec 32).toInt : ℝ) = ∑ k : Fin n, ((((g k).setWidth 32).toInt : ℤ) : ℝ) := by
    rw [StableHlo.Predicate.toInt_eq_toNat_of_lt (by omega), htn]
    push_cast
    exact Finset.sum_congr rfl (fun k _ => by rw [toInt_setWidth_bit_eq_toNat]; push_cast; rfl)
  rw [hti, coe_real_sum]

/-- A word whose value is the number of set bits of a mask of at most 4096 bits, read signed, is the sum of the
    bits' signed values, in the extended reals. -/
theorem toInt_of_toNat_count {n : ℕ} (hn : n ≤ 4096) (g : Fin n → BitVec 1) (w : BitVec 32)
    (hw : w.toNat = (Finset.univ.filter (fun k : Fin n => g k = 1#1)).card) :
    ((w.toInt : ℝ) : EReal) = ∑ k : Fin n, ((((g k).setWidth 32).toInt : ℝ) : EReal) := by
  have hcard : (Finset.univ.filter (fun k : Fin n => g k = 1#1)).card ≤ n := by
    simpa using Finset.card_le_univ (Finset.univ.filter (fun k : Fin n => g k = 1#1))
  have hti : ((w.toInt : ℤ) : ℝ) = ∑ k : Fin n, ((((g k).setWidth 32).toInt : ℤ) : ℝ) := by
    rw [StableHlo.Predicate.toInt_eq_toNat_of_lt (by omega), hw, Finset.card_filter]
    push_cast
    exact Finset.sum_congr rfl (fun k _ => by rw [toInt_setWidth_bit]; split <;> simp)
  rw [hti, coe_real_sum]

/-- The count of set bits along the columns of a mask of at most 4096 columns, taken as the sum-reduction of the widened
    mask and read signed, is the sum over the columns of the widened bits' signed values, in the extended reals. -/
theorem reduce_count_as_sum {n m : ℕ} (hm : m ≤ 4096) (mask : IVec ⟨2, ![n, m]⟩ 1) (hw : 1 < 32)
    (h : (⟨2, ![n, m]⟩ : Shape).ReducesTo [1] ⟨1, ![n]⟩) {u : Shape} (hu : 0 < u.numel) (j : (⟨1, ![n]⟩ : Shape).Idx) :
    (((Host.reduce IntOp.addi (extui 32 mask hw) (constantI u 32 0#32) h hu j).toInt : ℝ) : EReal)
      = ∑ q : Fin m, ((((mask (StableHlo.Predicate.ij (j 0) q)).setWidth 32).toInt : ℝ) : EReal) :=
  toInt_of_toNat_count hm (fun q => mask (StableHlo.Predicate.ij (j 0) q)) _
    (StableHlo.Predicate.toNat_reduce_count_cols (by omega) mask hw h hu j)

/-! ## The two pair masks, as each program spells them -/

/-- The reference's positive-pair mask at (R, C): labels equal, and not (row index plus zero equals column index). -/
theorem isPos_host (Lb : Labels) (R C : Fin 4096) :
    IntOp.andi (IntOp.cmpi .eq (Lb R) (Lb C))
        (~~~(IntOp.cmpi .eq (IntOp.addi (BitVec.ofNat 32 R.val) 0#32) (BitVec.ofNat 32 C.val))) = isPos Lb R C := by
  rw [eye_host, not_eq_xor_one]
  rfl

/-- The reference's negative-pair mask at (R, C): not (labels equal). -/
theorem isNeg_host (Lb : Labels) (R C : Fin 4096) : ~~~(IntOp.cmpi .eq (Lb R) (Lb C)) = isNeg Lb R C := by
  rw [not_eq_xor_one]
  rfl

/-- The kernel's positive-pair mask at row r of row tile i and column c of column tile j. -/
theorem isPos_tile (Lb : Labels) (i : Fin 8) (j : Fin 4) (r : Fin 512) (c : Fin 1024) :
    IntOp.andi (IntOp.cmpi .eq (Lb (row i r)) (Lb (col j c)))
        (IntOp.xori (IntOp.cmpi .eq (IntOp.addi (Scalar.muli (BitVec.ofNat 32 i.val) 512#32) (BitVec.ofNat 32 r.val))
          (IntOp.addi (Scalar.muli (BitVec.ofNat 32 j.val) 1024#32) (BitVec.ofNat 32 c.val))) 1#1)
      = isPos Lb (row i r) (col j c) := by
  rw [eye_tile]
  rfl

/-- The kernel's negative-pair mask. -/
theorem isNeg_tile (Lb : Labels) (R C : Fin 4096) : IntOp.xori (IntOp.cmpi .eq (Lb R) (Lb C)) 1#1 = isNeg Lb R C := rfl

end Cert.Rll

end
-- ==== Proof.KI.Payloads.lean ====
/-
  One grid point of the ranked-list-loss kernel, read at an index.

  At grid point (i, j) the kernel holds the row block x0 (512 rows of the feature matrix), the column block x1 (1024 rows),
  the row block's labels x2 and the column block's labels x3, and adds to four running columns, for each row r of the block,
    the hinge terms of the positive pairs (r, c),      the number of positive pairs,
    the weighted terms of the negative pairs,           the weights of the negative pairs,
  each summed over the 1024 columns c of the tile. Below, each of these tiles is read at (r, c): the clamped distance
  from the two squared norms and the Gram product, the label-equality bit, the diagonal bit from the global row and column
  numbers, the weight. A lane sum at row r is the sum over c, so one point's effect on a running column s is
  s r + Σ_c term (row i r) (col j c) with the term of the specification. The closing quotient and the zero columns
  are read the same way.
-/
import proofs.«136497_j10256381903181_1_alg».proof.Proof.Gen.KernelIdeal.Skeleton
import proofs.«136497_j10256381903181_1_alg».proof.Proof.Spec
import proofs.«136497_j10256381903181_1_alg».proof.Proof.SpecLaws
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.SL.Sem Idealize.ShloMosaic.ValueIdx
open Cert.KernelIdeal Cert.KernelIdeal.Gen

/-! ## Layout operations of a kept unit axis, read at coordinates -/

section Layout
variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the lanes to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane sum read at a row -/

/-- The sum along the lanes of an [a, b] tile, at row r, is the sum over the row's b entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src ?_
  funext c
  refine Fin.ext ?_
  match c with
  | ⟨0, _⟩ => rfl
  | ⟨1, _⟩ => rfl

/-! ## The Gram product read at (r, c) -/

/-- Row coordinate of the left operand's index: the output's row. -/
theorem lhs_gram_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

/-- Column coordinate of the left operand's index: the contraction position. -/
theorem lhs_gram_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q

/-- Row coordinate of the right operand's index: the contraction position. -/
theorem rhs_gram_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q

/-- Column coordinate of the right operand's index: the output's column. -/
theorem rhs_gram_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The product of a [512, 512] tile with a [512, 1024] tile into zero, at (r, c): the sum over the 512 inner positions. -/
theorem gram_apply (a : FVec Ideal S512x512 .bf16) (b : FVec Ideal S512x1024 .bf16) (r : Fin 512) (c : Fin 1024) :
    matmul dot_S512x512_S512x1024_S512x1024_1_0_0_1_n_n none a b (constant (F := Ideal) S512x1024 .f32 0x00000000#32) (ix2 r c)
      = ∑ k : Fin 512, a (ix2 r k) * b (ix2 k c) := by
  simp only [matmul]
  rw [Ideal.matmul_constant_zero_apply,
    ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r c)
      ((ValueIdx.contrEquiv1 dot_S512x512_S512x1024_S512x1024_1_0_0_1_n_n 512 rfl rfl).symm k) = ix2 r k :=
    funext fun ax => Fin.ext (by
      match ax with
      | ⟨0, _⟩ => exact lhs_gram_0 _ _
      | ⟨1, _⟩ => exact (lhs_gram_1 _ _).trans hk)
  have er : dot_S512x512_S512x1024_S512x1024_1_0_0_1_n_n.rhsIdx (ix2 r c)
      ((ValueIdx.contrEquiv1 dot_S512x512_S512x1024_S512x1024_1_0_0_1_n_n 512 rfl rfl).symm k) = ix2 k c :=
    funext fun ax => Fin.ext (by
      match ax with
      | ⟨0, _⟩ => exact (rhs_gram_0 _ _).trans hk
      | ⟨1, _⟩ => exact rhs_gram_1 _ _)
  rw [el, er]

/-! ## One accumulation: a lane sum of a tile added to the running column -/

/-- The running column plus the lane sum of a [512, 1024] tile, at row r. -/
theorem accum_apply (w : FVec Ideal S512x1024 .f32) (s : Vec Ideal S512x1 .f32) (r : Fin 512) :
    shapeCast S512x1 (addf (F := Ideal) s (shapeCast S512x1
        (multiReduction .add [1] S512 w 0x00000000#32 reduces_S512x1024_S512 (.inl rfl) rfl) shapeCasts_S512_S512x1))
      shapeCasts_S512x1_S512x1 (ix2 r (0 : Fin 1))
      = s (ix2 r (0 : Fin 1)) + ∑ c : Fin 1024, w (ix2 r c) := by
  rw [shapeCast_self]
  show s (ix2 r (0 : Fin 1)) + shapeCast S512x1 (multiReduction .add [1] S512 w 0x00000000#32 reduces_S512x1024_S512 (.inl rfl) rfl)
      shapeCasts_S512_S512x1 (ix2 r (0 : Fin 1)) = _
  rw [shapeCast_a_a1_apply]
  exact congrArg (s (ix2 r (0 : Fin 1)) + ·) (laneSum_apply w _ _ _ r)

/-! ## The definitions: one grid point's effect on the four running sums, and the closing quotient -/

section Defs
variable {F : FTy → Type} [FloatOps F]

/-- The positive pairs' hinge sum, accumulated. -/
def step0 (i : grid0.Coords) (x0 : Vec F S512x512 .f32) (x1 : Vec F S1024x512 .f32) (x2 : Vec F S512x1 .i32) (x3 : Vec F S1x1024 .i32)
    (s : Vec F S512x1 .f32) : Vec F S512x1 .f32 :=
  k0_pay13 (k0_pay8 x0 x1) (k0_pay9 x2 x3) (k0_pay10 i) (k0_pay11 i) s

/-- The positive pairs' count, accumulated. -/
def step1 (i : grid0.Coords) (x2 : Vec F S512x1 .i32) (x3 : Vec F S1x1024 .i32) (s : Vec F S512x1 .f32) : Vec F S512x1 .f32 :=
  k0_pay14 (k0_pay9 x2 x3) (k0_pay10 i) (k0_pay11 i) s

/-- The weighted negative sum, accumulated. -/
def step2 (x0 : Vec F S512x512 .f32) (x1 : Vec F S1024x512 .f32) (x2 : Vec F S512x1 .i32) (x3 : Vec F S1x1024 .i32)
    (s : Vec F S512x1 .f32) : Vec F S512x1 .f32 :=
  k0_pay1 (k0_pay8 x0 x1) (k0_pay15 (k0_pay8 x0 x1) (k0_pay9 x2 x3)) s

/-- The negative weights' sum, accumulated. -/
def step3 (x0 : Vec F S512x512 .f32) (x1 : Vec F S1024x512 .f32) (x2 : Vec F S512x1 .i32) (x3 : Vec F S1x1024 .i32)
    (s : Vec F S512x1 .f32) : Vec F S512x1 .f32 :=
  k0_pay2 (k0_pay15 (k0_pay8 x0 x1) (k0_pay9 x2 x3)) s

/-- The row losses from the four finished sums. -/
def fin (s0 s1 s2 s3 : Vec F S512x1 .f32) : Vec F S512x1 .f32 := k0_pay3 s0 s1 s2 s3

end Defs

/-! ## The zero columns and the closing quotient -/

theorem zero4_apply (r : Fin 512) : k0_pay4 (F := Ideal) (ix2 r (0 : Fin 1)) = 0 := by
  show shapeCast S512x1 (broadcast S512x1 (Scalar.ofBits (F := Ideal) .f32 0x00000000#32)) shapeCasts_S512x1_S512x1 (ix2 r (0 : Fin 1)) = 0
  rw [shapeCast_self]
  exact Ideal.ofBits_zero_f32

theorem zero5_apply (r : Fin 512) : k0_pay5 (F := Ideal) (ix2 r (0 : Fin 1)) = 0 := by
  show shapeCast S512x1 (broadcast S512x1 (Scalar.ofBits (F := Ideal) .f32 0x00000000#32)) shapeCasts_S512x1_S512x1 (ix2 r (0 : Fin 1)) = 0
  rw [shapeCast_self]
  exact Ideal.ofBits_zero_f32

theorem zero6_apply (r : Fin 512) : k0_pay6 (F := Ideal) (ix2 r (0 : Fin 1)) = 0 := by
  show shapeCast S512x1 (broadcast S512x1 (Scalar.ofBits (F := Ideal) .f32 0x00000000#32)) shapeCasts_S512x1_S512x1 (ix2 r (0 : Fin 1)) = 0
  rw [shapeCast_self]
  exact Ideal.ofBits_zero_f32

theorem zero7_apply (r : Fin 512) : k0_pay7 (F := Ideal) (ix2 r (0 : Fin 1)) = 0 := by
  show shapeCast S512x1 (broadcast S512x1 (Scalar.ofBits (F := Ideal) .f32 0x00000000#32)) shapeCasts_S512x1_S512x1 (ix2 r (0 : Fin 1)) = 0
  rw [shapeCast_self]
  exact Ideal.ofBits_zero_f32

theorem fin_apply (s0 s1 s2 s3 : Vec Ideal S512x1 .f32) (r : Fin 512) :
    fin (F := Ideal) s0 s1 s2 s3 (ix2 r (0 : Fin 1))
      = Ideal.div (s0 (ix2 r (0 : Fin 1))) (s1 (ix2 r (0 : Fin 1)) + Cert.Rll.epsN)
        + Ideal.div (s2 (ix2 r (0 : Fin 1))) (s3 (ix2 r (0 : Fin 1)) + Cert.Rll.epsN) := rfl

/-! ## The tiles at (r, c) -/

/-- The row block's squared norms, kept as a column and broadcast along the lanes. -/
theorem sqRow_apply (x : Vec Ideal S512x512 .f32) (r : Fin 512) (c : Fin 1024) :
    broadcastTo S512x1024 (shapeCast S512x1
        (multiReduction .add [1] S512 (mulf (F := Ideal) x x) 0x00000000#32 reduces_S512x512_S512 (.inl rfl) rfl)
        shapeCasts_S512_S512x1) broadcasts_S512x1_S512x1024 (ix2 r c)
      = ∑ k : Fin 512, x (ix2 r k) * x (ix2 r k) := by
  rw [broadcastTo_a1_ab_apply, shapeCast_a_a1_apply]
  exact laneSum_apply _ _ _ _ r

/-- The column block's squared norms, kept as a column, laid as a row and broadcast along the sublanes. -/
theorem sqCol_apply (x : Vec Ideal S1024x512 .f32) (r : Fin 512) (c : Fin 1024) :
    broadcastTo S512x1024 (transpose S1x1024 [1, 0] (shapeCast S1024x1
        (multiReduction .add [1] S1024 (mulf (F := Ideal) x x) 0x00000000#32 reduces_S1024x512_S1024 (.inl rfl) rfl)
        shapeCasts_S1024_S1024x1) transposes_S1024x1_p1_0_S1x1024) broadcasts_S1x1024_S512x1024 (ix2 r c)
      = ∑ k : Fin 512, x (ix2 c k) * x (ix2 c k) := by
  rw [broadcastTo_1b_ab_apply, transpose_ix2_apply, shapeCast_a_a1_apply]
  exact laneSum_apply _ _ _ _ c

/-- The distance formula is a function of the two squared norms and the Gram entry. -/
theorem dist_of (A B M a b m : EReal) (hA : A = a) (hB : B = b) (hM : M = m) :
    Ideal.sqrt (max Cert.Rll.epsD ((A + B) - Cert.Rll.twoW * M)) = Ideal.sqrt (max Cert.Rll.epsD ((a + b) - Cert.Rll.twoW * m)) := by
  rw [hA, hB, hM]

section Tiles
variable (X : Cert.Rll.Feats) (Lb : Cert.Rll.Labels) (ti : Fin 8) (tj : Fin 4)
  (x0 : Vec Ideal S512x512 .f32) (x1 : Vec Ideal S1024x512 .f32) (x2 : Vec Ideal S512x1 .i32) (x3 : Vec Ideal S1x1024 .i32)

/-- The clamped distance tile at (r, c) is the distance of global row and column. -/
theorem dist_tile
    (hx0 : ∀ (r : Fin 512) (k : Fin 512), x0 (ix2 r k) = X (Cert.Rll.row ti r) k)
    (hx1 : ∀ (c : Fin 1024) (k : Fin 512), x1 (ix2 c k) = X (Cert.Rll.col tj c) k) (r : Fin 512) (c : Fin 1024) :
    k0_pay8 (F := Ideal) x0 x1 (ix2 r c) = Cert.Rll.dist X (Cert.Rll.row ti r) (Cert.Rll.col tj c) := by
  have hA : _ = Cert.Rll.sq X (Cert.Rll.row ti r) :=
    (sqRow_apply x0 r c).trans (Finset.sum_congr rfl fun k _ => by rw [hx0 r k])
  have hB : _ = Cert.Rll.sq X (Cert.Rll.col tj c) :=
    (sqCol_apply x1 r c).trans (Finset.sum_congr rfl fun k _ => by rw [hx1 c k])
  have hM : _ = Cert.Rll.gram X (Cert.Rll.row ti r) (Cert.Rll.col tj c) :=
    (gram_apply (truncf .bf16 x0 bitsLt_bf16_f32)
      (transpose S512x1024 [1, 0] (truncf .bf16 x1 bitsLt_bf16_f32) transposes_S1024x512_p1_0_S512x1024) r c).trans
      (Finset.sum_congr rfl fun k _ => by
        rw [transpose_ix2_apply]
        show x0 (ix2 r k) * x1 (ix2 c k) = _
        rw [hx0 r k, hx1 c k])
  exact dist_of _ _ _ _ _ _ hA hB hM

/-- The label-equality tile at (r, c). -/
theorem same_tile
    (hx2 : ∀ r : Fin 512, x2 (ix2 r (0 : Fin 1)) = Lb (Cert.Rll.row ti r))
    (hx3 : ∀ c : Fin 1024, x3 (ix2 (0 : Fin 1) c) = Lb (Cert.Rll.col tj c)) (r : Fin 512) (c : Fin 1024) :
    k0_pay9 (F := Ideal) x2 x3 (ix2 r c) = Cert.Rll.same Lb (Cert.Rll.row ti r) (Cert.Rll.col tj c) := by
  have h2 : broadcastTo S512x1024 (shapeCast S512x1 x2 shapeCasts_S512x1_S512x1) broadcasts_S512x1_S512x1024 (ix2 r c)
      = Lb (Cert.Rll.row ti r) := by
    rw [broadcastTo_a1_ab_apply, shapeCast_self]; exact hx2 r
  have h3 : broadcastTo S512x1024 (shapeCast S1x1024 x3 shapeCasts_S1x1024_S1x1024) broadcasts_S1x1024_S512x1024 (ix2 r c)
      = Lb (Cert.Rll.col tj c) := by
    rw [broadcastTo_1b_ab_apply, shapeCast_self]; exact hx3 c
  exact congrArg₂ (IntOp.cmpi .eq) h2 h3

end Tiles

/-! ## The global row and column numbers, and the pair masks -/

/-- The global row number at (r, c): 512 times the row tile's number, plus r, as 32-bit words. -/
theorem rowId_apply (i : grid0.Coords) (r : Fin 512) (c : Fin 1024) :
    k0_pay10 i (ix2 r c) = IntOp.addi (Scalar.muli (BitVec.ofNat 32 (i 0).val) 512#32) (BitVec.ofNat 32 r.val) := by
  show IntOp.addi (broadcast S512x1024 (Scalar.muli (BitVec.ofNat 32 (i 0).val) 512#32) (ix2 r c))
      (iota .tc S512x1024 32 [0] iota_S512x1024_d0_w32 (ix2 r c)) = _
  rw [iota_single_apply]
  rfl

/-- The global column number at (r, c): 1024 times the column tile's number, plus c, as 32-bit words. -/
theorem colId_apply (i : grid0.Coords) (r : Fin 512) (c : Fin 1024) :
    k0_pay11 i (ix2 r c) = IntOp.addi (Scalar.muli (BitVec.ofNat 32 (i 1).val) 1024#32) (BitVec.ofNat 32 c.val) := by
  show IntOp.addi (broadcast S512x1024 (Scalar.muli (BitVec.ofNat 32 (i 1).val) 1024#32) (ix2 r c))
      (iota .tc S512x1024 32 [1] iota_S512x1024_d1_w32 (ix2 r c)) = _
  rw [iota_single_apply]
  rfl

/-- The positive-pair mask at (r, c): labels agree and the global row is not the global column. -/
theorem mask_tile (Lb : Cert.Rll.Labels) (ti : Fin 8) (tj : Fin 4) (i : grid0.Coords)
    (x2 : Vec Ideal S512x1 .i32) (x3 : Vec Ideal S1x1024 .i32)
    (hi0 : (i 0).val = ti.val) (hi1 : (i 1).val = tj.val)
    (hx2 : ∀ r : Fin 512, x2 (ix2 r (0 : Fin 1)) = Lb (Cert.Rll.row ti r))
    (hx3 : ∀ c : Fin 1024, x3 (ix2 (0 : Fin 1) c) = Lb (Cert.Rll.col tj c)) (r : Fin 512) (c : Fin 1024) :
    k0_pay12 (k0_pay9 (F := Ideal) x2 x3) (k0_pay10 i) (k0_pay11 i) (ix2 r c)
      = Cert.Rll.isPos Lb (Cert.Rll.row ti r) (Cert.Rll.col tj c) := by
  show IntOp.andi (k0_pay9 (F := Ideal) x2 x3 (ix2 r c))
      (IntOp.xori (IntOp.cmpi .eq (k0_pay10 i (ix2 r c)) (k0_pay11 i (ix2 r c))) 1#1) = _
  rw [same_tile Lb ti tj x2 x3 hx2 hx3 r c, rowId_apply, colId_apply, hi0, hi1]
  exact Cert.Rll.isPos_tile Lb ti tj r c

/-- The weight tile read through any distance and label-equality tiles. -/
theorem pay15_apply (v24 : FVec Ideal S512x1024 .f32) (v31 : IVec S512x1024 1) (r : Fin 512) (c : Fin 1024) :
    k0_pay15 (F := Ideal) v24 v31 (ix2 r c)
      = Scalar.select ((v31 (ix2 r c) ^^^ 1#1) &&& Ideal.cmp .olt (v24 (ix2 r c)) Cert.Rll.alphaW)
          (Ideal.exp (Cert.Rll.tvalW * (Cert.Rll.alphaW - v24 (ix2 r c)))) Cert.Rll.zeroW := rfl

/-- The weight tile at (r, c): the negative pair's exponential weight inside the margin. -/
theorem weight_tile (X : Cert.Rll.Feats) (Lb : Cert.Rll.Labels) (ti : Fin 8) (tj : Fin 4)
    (x0 : Vec Ideal S512x512 .f32) (x1 : Vec Ideal S1024x512 .f32) (x2 : Vec Ideal S512x1 .i32) (x3 : Vec Ideal S1x1024 .i32)
    (hx0 : ∀ (r : Fin 512) (k : Fin 512), x0 (ix2 r k) = X (Cert.Rll.row ti r) k)
    (hx1 : ∀ (c : Fin 1024) (k : Fin 512), x1 (ix2 c k) = X (Cert.Rll.col tj c) k)
    (hx2 : ∀ r : Fin 512, x2 (ix2 r (0 : Fin 1)) = Lb (Cert.Rll.row ti r))
    (hx3 : ∀ c : Fin 1024, x3 (ix2 (0 : Fin 1) c) = Lb (Cert.Rll.col tj c)) (r : Fin 512) (c : Fin 1024) :
    k0_pay15 (k0_pay8 (F := Ideal) x0 x1) (k0_pay9 (F := Ideal) x2 x3) (ix2 r c)
      = Cert.Rll.wTerm X Lb (Cert.Rll.row ti r) (Cert.Rll.col tj c) := by
  rw [pay15_apply, dist_tile X ti tj x0 x1 hx0 hx1 r c, same_tile Lb ti tj x2 x3 hx2 hx3 r c]
  rfl

/-! ## The four accumulations through any tiles -/

/-- The hinge accumulation: the running column plus the lane sum of the masked hinge tile. -/
theorem pay13_apply (v24 : FVec Ideal S512x1024 .f32) (v31 : IVec S512x1024 1) (v36 v39 : IVec S512x1024 32)
    (s : Vec Ideal S512x1 .f32) (r : Fin 512) :
    k0_pay13 (F := Ideal) v24 v31 v36 v39 s (ix2 r (0 : Fin 1))
      = s (ix2 r (0 : Fin 1)) + ∑ c : Fin 1024, Scalar.select (k0_pay12 v31 v36 v39 (ix2 r c))
          (max (v24 (ix2 r c) + Cert.Rll.shiftW) Cert.Rll.zeroW) Cert.Rll.zeroW :=
  accum_apply _ s r

/-- The count accumulation: the running column plus the lane sum of the mask read as numbers. -/
theorem pay14_apply (v31 : IVec S512x1024 1) (v36 v39 : IVec S512x1024 32) (s : Vec Ideal S512x1 .f32) (r : Fin 512) :
    k0_pay14 (F := Ideal) v31 v36 v39 s (ix2 r (0 : Fin 1))
      = s (ix2 r (0 : Fin 1)) + ∑ c : Fin 1024, (((((k0_pay12 v31 v36 v39 (ix2 r c)).setWidth 32).toInt : ℝ)) : EReal) :=
  accum_apply _ s r

/-- The weighted negative accumulation: the running column plus the lane sum of (margin minus distance) times weight. -/
theorem pay1_apply (v24 v75 : FVec Ideal S512x1024 .f32) (s : Vec Ideal S512x1 .f32) (r : Fin 512) :
    k0_pay1 (F := Ideal) v24 v75 s (ix2 r (0 : Fin 1))
      = s (ix2 r (0 : Fin 1)) + ∑ c : Fin 1024, (Cert.Rll.alphaW - v24 (ix2 r c)) * v75 (ix2 r c) :=
  accum_apply _ s r

/-- The weight accumulation: the running column plus the lane sum of the weight tile. -/
theorem pay2_apply (v75 : FVec Ideal S512x1024 .f32) (s : Vec Ideal S512x1 .f32) (r : Fin 512) :
    k0_pay2 (F := Ideal) v75 s (ix2 r (0 : Fin 1)) = s (ix2 r (0 : Fin 1)) + ∑ c : Fin 1024, v75 (ix2 r c) :=
  accum_apply _ s r

/-! ## One grid point's effect on the four running sums, at row r -/

/-- The hinge sum of the positive pairs of row r over column tile tj, added to the running sum. -/
theorem step0_apply (X : Cert.Rll.Feats) (Lb : Cert.Rll.Labels) (ti : Fin 8) (tj : Fin 4) (i : grid0.Coords)
    (hi0 : (i 0).val = ti.val) (hi1 : (i 1).val = tj.val)
    {x0 : Vec Ideal S512x512 .f32} {x1 : Vec Ideal S1024x512 .f32} {x2 : Vec Ideal S512x1 .i32} {x3 : Vec Ideal S1x1024 .i32}
    (hx0 : ∀ (r : Fin 512) (k : Fin 512), x0 (ValueIdx.ix2 r k) = X (Cert.Rll.row ti r) k)
    (hx1 : ∀ (c : Fin 1024) (k : Fin 512), x1 (ValueIdx.ix2 c k) = X (Cert.Rll.col tj c) k)
    (hx2 : ∀ r : Fin 512, x2 (ValueIdx.ix2 r 0) = Lb (Cert.Rll.row ti r))
    (hx3 : ∀ c : Fin 1024, x3 (ValueIdx.ix2 0 c) = Lb (Cert.Rll.col tj c))
    (s : Vec Ideal S512x1 .f32) (r : Fin 512) :
    step0 (F := Ideal) i x0 x1 x2 x3 s (ValueIdx.ix2 r 0)
      = s (ValueIdx.ix2 r 0) + ∑ c : Fin 1024, Cert.Rll.apTerm X Lb (Cert.Rll.row ti r) (Cert.Rll.col tj c) := by
  unfold step0
  rw [pay13_apply]
  refine congrArg (s (ix2 r (0 : Fin 1)) + ·) (Finset.sum_congr rfl fun c _ => ?_)
  rw [mask_tile Lb ti tj i x2 x3 hi0 hi1 hx2 hx3 r c, dist_tile X ti tj x0 x1 hx0 hx1 r c]
  rfl

/-- The number of positive pairs of row r in column tile tj, added to the running count. -/
theorem step1_apply (X : Cert.Rll.Feats) (Lb : Cert.Rll.Labels) (ti : Fin 8) (tj : Fin 4) (i : grid0.Coords)
    (hi0 : (i 0).val = ti.val) (hi1 : (i 1).val = tj.val)
    {x0 : Vec Ideal S512x512 .f32} {x1 : Vec Ideal S1024x512 .f32} {x2 : Vec Ideal S512x1 .i32} {x3 : Vec Ideal S1x1024 .i32}
    (hx0 : ∀ (r : Fin 512) (k : Fin 512), x0 (ValueIdx.ix2 r k) = X (Cert.Rll.row ti r) k)
    (hx1 : ∀ (c : Fin 1024) (k : Fin 512), x1 (ValueIdx.ix2 c k) = X (Cert.Rll.col tj c) k)
    (hx2 : ∀ r : Fin 512, x2 (ValueIdx.ix2 r 0) = Lb (Cert.Rll.row ti r))
    (hx3 : ∀ c : Fin 1024, x3 (ValueIdx.ix2 0 c) = Lb (Cert.Rll.col tj c))
    (s : Vec Ideal S512x1 .f32) (r : Fin 512) :
    step1 (F := Ideal) i x2 x3 s (ValueIdx.ix2 r 0)
      = s (ValueIdx.ix2 r 0) + ∑ c : Fin 1024, Cert.Rll.cntTerm Lb (Cert.Rll.row ti r) (Cert.Rll.col tj c) := by
  unfold step1
  rw [pay14_apply]
  refine congrArg (s (ix2 r (0 : Fin 1)) + ·) (Finset.sum_congr rfl fun c _ => ?_)
  rw [mask_tile Lb ti tj i x2 x3 hi0 hi1 hx2 hx3 r c]
  rfl

/-- The weighted negative terms of row r over column tile tj, added to the running sum. -/
theorem step2_apply (X : Cert.Rll.Feats) (Lb : Cert.Rll.Labels) (ti : Fin 8) (tj : Fin 4) (i : grid0.Coords)
    (hi0 : (i 0).val = ti.val) (hi1 : (i 1).val = tj.val)
    {x0 : Vec Ideal S512x512 .f32} {x1 : Vec Ideal S1024x512 .f32} {x2 : Vec Ideal S512x1 .i32} {x3 : Vec Ideal S1x1024 .i32}
    (hx0 : ∀ (r : Fin 512) (k : Fin 512), x0 (ValueIdx.ix2 r k) = X (Cert.Rll.row ti r) k)
    (hx1 : ∀ (c : Fin 1024) (k : Fin 512), x1 (ValueIdx.ix2 c k) = X (Cert.Rll.col tj c) k)
    (hx2 : ∀ r : Fin 512, x2 (ValueIdx.ix2 r 0) = Lb (Cert.Rll.row ti r))
    (hx3 : ∀ c : Fin 1024, x3 (ValueIdx.ix2 0 c) = Lb (Cert.Rll.col tj c))
    (s : Vec Ideal S512x1 .f32) (r : Fin 512) :
    step2 (F := Ideal) x0 x1 x2 x3 s (ValueIdx.ix2 r 0)
      = s (ValueIdx.ix2 r 0) + ∑ c : Fin 1024, Cert.Rll.anTerm X Lb (Cert.Rll.row ti r) (Cert.Rll.col tj c) := by
  unfold step2
  rw [pay1_apply]
  refine congrArg (s (ix2 r (0 : Fin 1)) + ·) (Finset.sum_congr rfl fun c _ => ?_)
  rw [weight_tile X Lb ti tj x0 x1 x2 x3 hx0 hx1 hx2 hx3 r c, dist_tile X ti tj x0 x1 hx0 hx1 r c]
  rfl

/-- The weights of the negative pairs of row r in column tile tj, added to the running sum. -/
theorem step3_apply (X : Cert.Rll.Feats) (Lb : Cert.Rll.Labels) (ti : Fin 8) (tj : Fin 4) (i : grid0.Coords)
    (hi0 : (i 0).val = ti.val) (hi1 : (i 1).val = tj.val)
    {x0 : Vec Ideal S512x512 .f32} {x1 : Vec Ideal S1024x512 .f32} {x2 : Vec Ideal S512x1 .i32} {x3 : Vec Ideal S1x1024 .i32}
    (hx0 : ∀ (r : Fin 512) (k : Fin 512), x0 (ValueIdx.ix2 r k) = X (Cert.Rll.row ti r) k)
    (hx1 : ∀ (c : Fin 1024) (k : Fin 512), x1 (ValueIdx.ix2 c k) = X (Cert.Rll.col tj c) k)
    (hx2 : ∀ r : Fin 512, x2 (ValueIdx.ix2 r 0) = Lb (Cert.Rll.row ti r))
    (hx3 : ∀ c : Fin 1024, x3 (ValueIdx.ix2 0 c) = Lb (Cert.Rll.col tj c))
    (s : Vec Ideal S512x1 .f32) (r : Fin 512) :
    step3 (F := Ideal) x0 x1 x2 x3 s (ValueIdx.ix2 r 0)
      = s (ValueIdx.ix2 r 0) + ∑ c : Fin 1024, Cert.Rll.wTerm X Lb (Cert.Rll.row ti r) (Cert.Rll.col tj c) := by
  unfold step3
  rw [pay2_apply]
  refine congrArg (s (ix2 r (0 : Fin 1)) + ·) (Finset.sum_congr rfl fun c _ => ?_)
  exact weight_tile X Lb ti tj x0 x1 x2 x3 hx0 hx1 hx2 hx3 r c

end Cert.KernelIdeal.Hand

end
-- ==== Proof.KI.Value.Tile.lean ====
/- One column tile of the row-block loss, over the extended reals. For a row R the loss needs four sums over all 4096
   columns C: the positive pairs' hinge terms, their count, the negative pairs' weighted terms and the weights. The
   kernel takes the columns 1024 at a time: a visit adds, to each of four running sums, the tile's 1024 terms. Here:
   one visit moves each running sum of a row from "the first tj tiles" to "the first tj + 1 tiles"; and once all four
   tiles are in, the two quotients the last visit forms are the row's loss. -/
import proofs.«136497_j10256381903181_1_alg».proof.Proof.KI.Payloads
import proofs.«136497_j10256381903181_1_alg».proof.Proof.Spec
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

variable (X : Cert.Rll.Feats) (Lb : Cert.Rll.Labels)

/-- The accumulated sum does not depend on how the count of tiles is written. -/
theorem acc_congr (f : Fin 4096 → EReal) {k k' : ℕ} (e : k = k') (h : k ≤ 4) (h' : k' ≤ 4) :
    Cert.Rll.acc f k h = Cert.Rll.acc f k' h' := by
  subst e; rfl

/-- ONE COLUMN TILE. At the point (ti, tj), with the four input blocks the rows of tile ti, the column samples of
    tile tj and their labels, if the four accumulators hold at row r the sums over the first tj column tiles, then
    what the point's four updates leave there are the sums over the first tj + 1 tiles. -/
theorem tile_step (ti : Fin 8) (tj : Fin 4) (i : grid0.Coords) (hi0 : (i 0).val = ti.val) (hi1 : (i 1).val = tj.val)
    (x0 : Vec Ideal S512x512 .f32) (x1 : Vec Ideal S1024x512 .f32) (x2 : Vec Ideal S512x1 .i32) (x3 : Vec Ideal S1x1024 .i32)
    (hx0 : ∀ (r : Fin 512) (k : Fin 512), x0 (ix2 r k) = X (Cert.Rll.row ti r) k)
    (hx1 : ∀ (cc : Fin 1024) (k : Fin 512), x1 (ix2 cc k) = X (Cert.Rll.col tj cc) k)
    (hx2 : ∀ r : Fin 512, x2 (ix2 r 0) = Lb (Cert.Rll.row ti r))
    (hx3 : ∀ cc : Fin 1024, x3 (ix2 0 cc) = Lb (Cert.Rll.col tj cc))
    (s0 s1 s2 s3 : Vec Ideal S512x1 .f32) (r : Fin 512)
    (h0 : s0 (ix2 r 0) = Cert.Rll.acc (Cert.Rll.apTerm X Lb (Cert.Rll.row ti r)) tj.val (Nat.le_of_lt tj.isLt))
    (h1 : s1 (ix2 r 0) = Cert.Rll.acc (Cert.Rll.cntTerm Lb (Cert.Rll.row ti r)) tj.val (Nat.le_of_lt tj.isLt))
    (h2 : s2 (ix2 r 0) = Cert.Rll.acc (Cert.Rll.anTerm X Lb (Cert.Rll.row ti r)) tj.val (Nat.le_of_lt tj.isLt))
    (h3 : s3 (ix2 r 0) = Cert.Rll.acc (Cert.Rll.wTerm X Lb (Cert.Rll.row ti r)) tj.val (Nat.le_of_lt tj.isLt)) :
    step0 (F := Ideal) i x0 x1 x2 x3 s0 (ix2 r 0) = Cert.Rll.acc (Cert.Rll.apTerm X Lb (Cert.Rll.row ti r)) (tj.val + 1) tj.isLt
    ∧ step1 (F := Ideal) i x2 x3 s1 (ix2 r 0) = Cert.Rll.acc (Cert.Rll.cntTerm Lb (Cert.Rll.row ti r)) (tj.val + 1) tj.isLt
    ∧ step2 (F := Ideal) x0 x1 x2 x3 s2 (ix2 r 0) = Cert.Rll.acc (Cert.Rll.anTerm X Lb (Cert.Rll.row ti r)) (tj.val + 1) tj.isLt
    ∧ step3 (F := Ideal) x0 x1 x2 x3 s3 (ix2 r 0) = Cert.Rll.acc (Cert.Rll.wTerm X Lb (Cert.Rll.row ti r)) (tj.val + 1) tj.isLt := by
  refine ⟨?_, ?_, ?_, ?_⟩
  · refine (step0_apply X Lb ti tj i hi0 hi1 hx0 hx1 hx2 hx3 s0 r).trans ?_
    rw [h0]; rfl
  · refine (step1_apply X Lb ti tj i hi0 hi1 hx0 hx1 hx2 hx3 s1 r).trans ?_
    rw [h1]; rfl
  · refine (step2_apply X Lb ti tj i hi0 hi1 hx0 hx1 hx2 hx3 s2 r).trans ?_
    rw [h2]; rfl
  · refine (step3_apply X Lb ti tj i hi0 hi1 hx0 hx1 hx2 hx3 s3 r).trans ?_
    rw [h3]; rfl

/-- THE ROW'S LOSS. When the four accumulators hold at row r the sums over all four column tiles (every column of
    the matrix), what the last point stores into the output column there is the loss of that row. -/
theorem tile_last (R : Fin 4096) (s0 s1 s2 s3 : Vec Ideal S512x1 .f32) (r : Fin 512)
    (h0 : s0 (ix2 r 0) = Cert.Rll.acc (Cert.Rll.apTerm X Lb R) 4 (le_refl 4))
    (h1 : s1 (ix2 r 0) = Cert.Rll.acc (Cert.Rll.cntTerm Lb R) 4 (le_refl 4))
    (h2 : s2 (ix2 r 0) = Cert.Rll.acc (Cert.Rll.anTerm X Lb R) 4 (le_refl 4))
    (h3 : s3 (ix2 r 0) = Cert.Rll.acc (Cert.Rll.wTerm X Lb R) 4 (le_refl 4)) :
    fin (F := Ideal) s0 s1 s2 s3 (ix2 r 0) = Cert.Rll.rowLoss X Lb R := by
  rw [fin_apply, h0, h1, h2, h3, Cert.Rll.acc_four, Cert.Rll.acc_four, Cert.Rll.acc_four, Cert.Rll.acc_four]
  rfl

end Cert.KernelIdeal.Hand

end
-- ==== Proof.KI.Pieces.lean ====
/- What each kind of visit of the row-block loss kernel leaves, as functions of what it found. A visit at column block
   j updates the four column accumulators of 512 rows (the positive pairs' hinge sums; the positive pairs' counts; the weighted negative sums; the negative pairs' weights) by one tile's partial sums: step0 .. step3 of the
   point's four input blocks and of the accumulator's previous contents. At j = 0 the previous contents are the zero
   column the visit itself stored first (the update reads it back); at j = 1, 2, 3 they are what the visit before
   left. At j = 3 the visit also stores the output column: the two quotients of the updated accumulators, added.
   Every store is the whole column [512, 1] at offset zero, so the last store into a buffer is what it holds. -/
import proofs.«136497_j10256381903181_1_alg».proof.Proof.KI.Frame
import proofs.«136497_j10256381903181_1_alg».proof.Proof.KI.Payloads

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

variable {F : FTy → Type} [FloatOps F]

/-- Offset zero on both axes. -/
theorem off00 : (![0, 0] : Fin 2 → Nat) = fun _ => 0 := funext fun a => by fin_cases a <;> rfl

/-! ## A visit at j = 0: each accumulator is one tile's sums added to the zero column -/

/-- The first accumulator after a visit at j = 0: the tile's update of the zero column stored just before. -/
theorem sout0_A_0_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) :
    sout0_A_0 c i arg2 harg2 arg3 harg3 arg4 harg4 arg5 harg5 arg6 harg6 arg7 harg7 arg8 harg8 arg9 harg9 arg10 harg10 hc0 hc1 x0 x1 x2 x3 = step0 i x0 x1 x2 x3 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) off00, View.readCov_unit_zero (S := S512x1) _ off00]
  unfold step0
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The second accumulator after a visit at j = 0: the tile's update of the zero column stored just before. -/
theorem sout0_A_1_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) :
    sout0_A_1 c i arg2 harg2 arg3 harg3 arg4 harg4 arg5 harg5 arg6 harg6 arg7 harg7 arg8 harg8 arg9 harg9 arg10 harg10 hc0 hc1 x0 x1 x2 x3 = step1 i x2 x3 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) off00, View.readCov_unit_zero (S := S512x1) _ off00]
  unfold step1
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The third accumulator after a visit at j = 0: the tile's update of the zero column stored just before. -/
theorem sout0_A_2_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) :
    sout0_A_2 c i arg2 harg2 arg3 harg3 arg4 harg4 arg5 harg5 arg6 harg6 arg7 harg7 arg8 harg8 arg9 harg9 arg10 harg10 hc0 hc1 x0 x1 x2 x3 = step2 x0 x1 x2 x3 k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) off00, View.readCov_unit_zero (S := S512x1) _ off00]
  unfold step2
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The fourth accumulator after a visit at j = 0: the tile's update of the zero column stored just before. -/
theorem sout0_A_3_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x512 .f32) (x1 : Vec F S1024x512 .f32) (x2 : Vec F S512x1 .i32) (x3 : Vec F S1x1024 .i32) :
    sout0_A_3 c i arg2 harg2 arg3 harg3 arg4 harg4 arg5 harg5 arg6 harg6 arg7 harg7 arg8 harg8 arg9 harg9 arg10 harg10 hc0 hc1 x0 x1 x2 x3 = step3 x0 x1 x2 x3 k0_pay7 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) off00, View.readCov_unit_zero (S := S512x1) _ off00]
  unfold step3
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-! ## A visit at j = 1, 2: each accumulator is one tile's sums added to what the visit before left -/

/-- The first accumulator after a visit at j = 1, 2. -/
theorem sout0_B_0_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) :
    sout0_B_0 c i arg2 harg2 arg3 harg3 arg4 harg4 arg5 harg5 arg6 harg6 arg7 harg7 arg8 harg8 arg9 harg9 arg10 harg10 hc0 hc1 x0 x1 x2 x3 xs0 xs1 xs2 xs3 = step0 i x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero off00]
  unfold step0
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The second accumulator after a visit at j = 1, 2. -/
theorem sout0_B_1_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) :
    sout0_B_1 c i arg2 harg2 arg3 harg3 arg4 harg4 arg5 harg5 arg6 harg6 arg7 harg7 arg8 harg8 arg9 harg9 arg10 harg10 hc0 hc1 x0 x1 x2 x3 xs0 xs1 xs2 xs3 = step1 i x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero off00]
  unfold step1
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The third accumulator after a visit at j = 1, 2. -/
theorem sout0_B_2_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) :
    sout0_B_2 c i arg2 harg2 arg3 harg3 arg4 harg4 arg5 harg5 arg6 harg6 arg7 harg7 arg8 harg8 arg9 harg9 arg10 harg10 hc0 hc1 x0 x1 x2 x3 xs0 xs1 xs2 xs3 = step2 x0 x1 x2 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero off00]
  unfold step2
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The fourth accumulator after a visit at j = 1, 2. -/
theorem sout0_B_3_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x512 .f32) (x1 : Vec F S1024x512 .f32) (x2 : Vec F S512x1 .i32) (x3 : Vec F S1x1024 .i32) (xs0 xs1 xs2 xs3 : Vec F S512x1 .f32) :
    sout0_B_3 c i arg2 harg2 arg3 harg3 arg4 harg4 arg5 harg5 arg6 harg6 arg7 harg7 arg8 harg8 arg9 harg9 arg10 harg10 hc0 hc1 x0 x1 x2 x3 xs0 xs1 xs2 xs3 = step3 x0 x1 x2 x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero off00]
  unfold step3
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-! ## A visit at j = 3: each accumulator is one tile's sums added to what the visit before left -/

/-- The first accumulator after a visit at j = 3. -/
theorem sout0_C_0_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) :
    sout0_C_0 c i arg2 harg2 arg3 harg3 arg4 harg4 arg5 harg5 arg6 harg6 arg7 harg7 arg8 harg8 arg9 harg9 arg10 harg10 hc0 hc1 x0 x1 x2 x3 xs0 xs1 xs2 xs3 = step0 i x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero off00]
  unfold step0
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The second accumulator after a visit at j = 3. -/
theorem sout0_C_1_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) :
    sout0_C_1 c i arg2 harg2 arg3 harg3 arg4 harg4 arg5 harg5 arg6 harg6 arg7 harg7 arg8 harg8 arg9 harg9 arg10 harg10 hc0 hc1 x0 x1 x2 x3 xs0 xs1 xs2 xs3 = step1 i x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero off00]
  unfold step1
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The third accumulator after a visit at j = 3. -/
theorem sout0_C_2_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) :
    sout0_C_2 c i arg2 harg2 arg3 harg3 arg4 harg4 arg5 harg5 arg6 harg6 arg7 harg7 arg8 harg8 arg9 harg9 arg10 harg10 hc0 hc1 x0 x1 x2 x3 xs0 xs1 xs2 xs3 = step2 x0 x1 x2 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero off00]
  unfold step2
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-- The fourth accumulator after a visit at j = 3. -/
theorem sout0_C_3_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) :
    sout0_C_3 c i arg2 harg2 arg3 harg3 arg4 harg4 arg5 harg5 arg6 harg6 arg7 harg7 arg8 harg8 arg9 harg9 arg10 harg10 hc0 hc1 x0 x1 x2 x3 xs0 xs1 xs2 xs3 = step3 x0 x1 x2 x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero off00]
  unfold step3
  simp only [View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

/-! ## The output column at j = 3 -/

/-- What the visit at j = 3 stores into the output column: the combination of the four accumulators as it has just
    updated them (each read back from its own store). -/
theorem out0_C_4_eq (c : Dev nD) (i : grid0.Coords) (arg2 : Memref sig .tc .vmem S512x512 .f32) (harg2 : arg2.IsWhole) (arg3 : Memref sig .tc .vmem S1024x512 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x512 .f32) (x1 : Vec F S1024x512 .f32) (x2 : Vec F S512x1 .i32) (x3 : Vec F S1x1024 .i32) (xs0 xs1 xs2 xs3 : Vec F S512x1 .f32) :
    out0_C_4 c i arg2 harg2 arg3 harg3 arg4 harg4 arg5 harg5 arg6 harg6 arg7 harg7 arg8 harg8 arg9 harg9 arg10 harg10 hc0 hc1 x0 x1 x2 x3 xs0 xs1 xs2 xs3
      = fin (step0 i x0 x1 x2 x3 xs0) (step1 i x2 x3 xs1) (step2 x0 x1 x2 x3 xs2) (step3 x0 x1 x2 x3 xs3) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero off00]
  unfold fin step0 step1 step2 step3
  simp only [View.readCov_unit_zero (S := S512x1) _ off00, View.readAt_eq_ld, harg2.read_unread, harg3.read_unread, harg4.read_unread, harg5.read_unread, harg7.read_unread, harg8.read_unread, harg9.read_unread, harg10.read_unread, View.ld_unit_zero (S := S512x512) off00, View.ld_unit_zero (S := S1024x512) off00, View.ld_unit_zero (S := S512x1) off00, View.ld_unit_zero (S := S1x1024) off00]

end Cert.KernelIdeal.Hand

end
-- ==== Proof.KI.Value.Points.lean ====
/- The accumulation of the row-block loss kernel at a grid point, as step functions. Position t of the grid is row
   block t / 4, column block t % 4. After the visit at t each of the four accumulators is the point's update
   (step0 .. step3 of the point's four input blocks) of the zero column when t % 4 = 0, and of what position t - 1
   left when t % 4 is 1, 2 or 3; at t % 4 = 3 the output's staging buffer is the combination of the four accumulators
   as the visit leaves them. -/
import proofs.«136497_j10256381903181_1_alg».proof.Proof.KI.Pieces

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

variable {F : FTy → Type} [FloatOps F]
variable (m : (ℓ : Loc nD τ sig) → Buf (Elt F) ℓ)

/-- A row starts (t % 4 = 0): the four accumulators are the first tile's sums added to zero columns. -/
theorem accs_first (c : Dev nD) (t : Fin cfg0.N) (h0 : t.val % 4 = 0) (h1 : ¬t.val % 4 = 3) :
    (outsAt0 m c t.val t.isLt).2.1 = step0 (grid0.coords t) (iblk m c 0 t) (iblk m c 1 t) (iblk m c 2 t) (iblk m c 3 t) k0_pay4
    ∧ (outsAt0 m c t.val t.isLt).2.2.1 = step1 (grid0.coords t) (iblk m c 2 t) (iblk m c 3 t) k0_pay5
    ∧ (outsAt0 m c t.val t.isLt).2.2.2.1 = step2 (iblk m c 0 t) (iblk m c 1 t) (iblk m c 2 t) (iblk m c 3 t) k0_pay6
    ∧ (outsAt0 m c t.val t.isLt).2.2.2.2 = step3 (iblk m c 0 t) (iblk m c 1 t) (iblk m c 2 t) (iblk m c 3 t) k0_pay7 := by
  rw [outsAt0_A m c t h0 h1]
  dsimp only
  exact ⟨sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
    sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
    sout0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
    sout0_A_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)⟩

/-- Inside a row (t % 4 = 1 or 2): each accumulator is the tile's sums added to what position t - 1 left in it. -/
theorem accs_middle (c : Dev nD) (t : Fin cfg0.N) (h0 : ¬t.val % 4 = 0) (h1 : ¬t.val % 4 = 3) :
    (outsAt0 m c t.val t.isLt).2.1 = step0 (grid0.coords t) (iblk m c 0 t) (iblk m c 1 t) (iblk m c 2 t) (iblk m c 3 t) (outsAt0 m c (t.val - 1) (Nat.lt_of_le_of_lt (Nat.sub_le _ _) t.isLt)).2.1
    ∧ (outsAt0 m c t.val t.isLt).2.2.1 = step1 (grid0.coords t) (iblk m c 2 t) (iblk m c 3 t) (outsAt0 m c (t.val - 1) (Nat.lt_of_le_of_lt (Nat.sub_le _ _) t.isLt)).2.2.1
    ∧ (outsAt0 m c t.val t.isLt).2.2.2.1 = step2 (iblk m c 0 t) (iblk m c 1 t) (iblk m c 2 t) (iblk m c 3 t) (outsAt0 m c (t.val - 1) (Nat.lt_of_le_of_lt (Nat.sub_le _ _) t.isLt)).2.2.2.1
    ∧ (outsAt0 m c t.val t.isLt).2.2.2.2 = step3 (iblk m c 0 t) (iblk m c 1 t) (iblk m c 2 t) (iblk m c 3 t) (outsAt0 m c (t.val - 1) (Nat.lt_of_le_of_lt (Nat.sub_le _ _) t.isLt)).2.2.2.2 := by
  rw [outsAt0_B m c t h0 h1]
  dsimp only
  exact ⟨sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_B_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2⟩

/-- A row ends (t % 4 = 3): the accumulators as inside a row, and the output's staging buffer their combination. -/
theorem accs_last (c : Dev nD) (t : Fin cfg0.N) (h0 : ¬t.val % 4 = 0) (h1 : t.val % 4 = 3) :
    (outsAt0 m c t.val t.isLt).1 = fin (outsAt0 m c t.val t.isLt).2.1 (outsAt0 m c t.val t.isLt).2.2.1 (outsAt0 m c t.val t.isLt).2.2.2.1 (outsAt0 m c t.val t.isLt).2.2.2.2
    ∧ (outsAt0 m c t.val t.isLt).2.1 = step0 (grid0.coords t) (iblk m c 0 t) (iblk m c 1 t) (iblk m c 2 t) (iblk m c 3 t) (outsAt0 m c (t.val - 1) (Nat.lt_of_le_of_lt (Nat.sub_le _ _) t.isLt)).2.1
    ∧ (outsAt0 m c t.val t.isLt).2.2.1 = step1 (grid0.coords t) (iblk m c 2 t) (iblk m c 3 t) (outsAt0 m c (t.val - 1) (Nat.lt_of_le_of_lt (Nat.sub_le _ _) t.isLt)).2.2.1
    ∧ (outsAt0 m c t.val t.isLt).2.2.2.1 = step2 (iblk m c 0 t) (iblk m c 1 t) (iblk m c 2 t) (iblk m c 3 t) (outsAt0 m c (t.val - 1) (Nat.lt_of_le_of_lt (Nat.sub_le _ _) t.isLt)).2.2.2.1
    ∧ (outsAt0 m c t.val t.isLt).2.2.2.2 = step3 (iblk m c 0 t) (iblk m c 1 t) (iblk m c 2 t) (iblk m c 3 t) (outsAt0 m c (t.val - 1) (Nat.lt_of_le_of_lt (Nat.sub_le _ _) t.isLt)).2.2.2.2 := by
  rw [outsAt0_C m c t h0 h1]
  dsimp only
  rw [sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  exact ⟨out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, rfl, rfl, rfl, rfl⟩

end Cert.KernelIdeal.Hand

end
-- ==== Proof.KI.Value.Invariant.lean ====
/- The running sums of the row-block loss kernel, point by point, at the ideal values. With X the feature matrix and
   the labels as the caller gave them: after the visit at position t = 4 ti + k (row tile ti, column tile k) the four
   accumulators hold, at row r of the tile, the four sums of row 512 ti + r over the columns of tiles 0 .. k; by
   induction on k inside a row (a row starts from zero columns, so nothing is carried from the row before). After
   the visit at k = 3 the output's staging buffer holds the row's loss. -/
import proofs.«136497_j10256381903181_1_alg».proof.Proof.KI.Value.Blocks
import proofs.«136497_j10256381903181_1_alg».proof.Proof.KI.Value.Tile
import proofs.«136497_j10256381903181_1_alg».proof.Proof.KI.Value.Points

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

variable (m : (ℓ : Loc nD τ sig) → Buf (Elt Ideal) ℓ)

/-- THE RUNNING SUMS. After position t = 4 ti + k the accumulators hold, at row r, the sums over column tiles 0 .. k. -/
theorem accs_eq (c : Dev nD) (ti : Fin 8) (r : Fin 512) :
    ∀ (k : ℕ) (hk : k < 4) (t : Fin cfg0.N) (ht : t.val = 4 * ti.val + k),
      (outsAt0 m c t.val t.isLt).2.1 (ix2 r 0) = Cert.Rll.acc (Cert.Rll.apTerm (featsOf m c) (labelsOf m c) (Cert.Rll.row ti r)) (k + 1) hk
      ∧ (outsAt0 m c t.val t.isLt).2.2.1 (ix2 r 0) = Cert.Rll.acc (Cert.Rll.cntTerm (labelsOf m c) (Cert.Rll.row ti r)) (k + 1) hk
      ∧ (outsAt0 m c t.val t.isLt).2.2.2.1 (ix2 r 0) = Cert.Rll.acc (Cert.Rll.anTerm (featsOf m c) (labelsOf m c) (Cert.Rll.row ti r)) (k + 1) hk
      ∧ (outsAt0 m c t.val t.isLt).2.2.2.2 (ix2 r 0) = Cert.Rll.acc (Cert.Rll.wTerm (featsOf m c) (labelsOf m c) (Cert.Rll.row ti r)) (k + 1) hk
  | 0, hk, t, ht => by
    have hti : t.val / 4 = ti.val := by omega
    have htj : t.val % 4 = (⟨0, hk⟩ : Fin 4).val := by show t.val % 4 = 0; omega
    obtain ⟨c0, c1⟩ := coords_val t
    obtain ⟨p0, p1, p2, p3⟩ := accs_first m c t (by omega) (by omega)
    rw [p0, p1, p2, p3]
    exact tile_step (featsOf m c) (labelsOf m c) ti ⟨0, hk⟩ (grid0.coords t) (c0.trans hti) (c1.trans htj)
      (iblk m c 0 t) (iblk m c 1 t) (iblk m c 2 t) (iblk m c 3 t)
      (rowFeats_apply m c t ti hti) (colFeats_apply m c t ⟨0, hk⟩ htj) (rowLabels_apply m c t ti hti) (colLabels_apply m c t ⟨0, hk⟩ htj)
      (k0_pay4 (F := Ideal)) (k0_pay5 (F := Ideal)) (k0_pay6 (F := Ideal)) (k0_pay7 (F := Ideal)) r (zero4_apply r) (zero5_apply r) (zero6_apply r) (zero7_apply r)
  | k + 1, hk, t, ht => by
    have hN : cfg0.N = 32 := N_0
    have hlt : t.val - 1 < cfg0.N := by have := t.isLt; omega
    have ih := accs_eq c ti r k (by omega) ⟨t.val - 1, hlt⟩ (by show t.val - 1 = 4 * ti.val + k; omega)
    have hti : t.val / 4 = ti.val := by omega
    have htj : t.val % 4 = (⟨k + 1, hk⟩ : Fin 4).val := by show t.val % 4 = k + 1; omega
    have h0 : ¬t.val % 4 = 0 := by omega
    obtain ⟨c0, c1⟩ := coords_val t
    by_cases h1 : t.val % 4 = 3
    · obtain ⟨-, p0, p1, p2, p3⟩ := accs_last m c t h0 h1
      rw [p0, p1, p2, p3]
      exact tile_step (featsOf m c) (labelsOf m c) ti ⟨k + 1, hk⟩ (grid0.coords t) (c0.trans hti) (c1.trans htj)
        (iblk m c 0 t) (iblk m c 1 t) (iblk m c 2 t) (iblk m c 3 t)
        (rowFeats_apply m c t ti hti) (colFeats_apply m c t ⟨k + 1, hk⟩ htj) (rowLabels_apply m c t ti hti) (colLabels_apply m c t ⟨k + 1, hk⟩ htj)
        (outsAt0 m c (t.val - 1) (Nat.lt_of_le_of_lt (Nat.sub_le _ _) t.isLt)).2.1 (outsAt0 m c (t.val - 1) (Nat.lt_of_le_of_lt (Nat.sub_le _ _) t.isLt)).2.2.1
        (outsAt0 m c (t.val - 1) (Nat.lt_of_le_of_lt (Nat.sub_le _ _) t.isLt)).2.2.2.1 (outsAt0 m c (t.val - 1) (Nat.lt_of_le_of_lt (Nat.sub_le _ _) t.isLt)).2.2.2.2
        r ih.1 ih.2.1 ih.2.2.1 ih.2.2.2
    · obtain ⟨p0, p1, p2, p3⟩ := accs_middle m c t h0 h1
      rw [p0, p1, p2, p3]
      exact tile_step (featsOf m c) (labelsOf m c) ti ⟨k + 1, hk⟩ (grid0.coords t) (c0.trans hti) (c1.trans htj)
        (iblk m c 0 t) (iblk m c 1 t) (iblk m c 2 t) (iblk m c 3 t)
        (rowFeats_apply m c t ti hti) (colFeats_apply m c t ⟨k + 1, hk⟩ htj) (rowLabels_apply m c t ti hti) (colLabels_apply m c t ⟨k + 1, hk⟩ htj)
        (outsAt0 m c (t.val - 1) (Nat.lt_of_le_of_lt (Nat.sub_le _ _) t.isLt)).2.1 (outsAt0 m c (t.val - 1) (Nat.lt_of_le_of_lt (Nat.sub_le _ _) t.isLt)).2.2.1
        (outsAt0 m c (t.val - 1) (Nat.lt_of_le_of_lt (Nat.sub_le _ _) t.isLt)).2.2.2.1 (outsAt0 m c (t.val - 1) (Nat.lt_of_le_of_lt (Nat.sub_le _ _) t.isLt)).2.2.2.2
        r ih.1 ih.2.1 ih.2.2.1 ih.2.2.2

/-- THE ROW'S LOSS. After the last column tile of row tile ti the output's staging buffer holds, at row r, the loss of
    row 512 ti + r. -/
theorem out_eq_rowLoss (c : Dev nD) (ti : Fin 8) (r : Fin 512) (t : Fin cfg0.N) (ht : t.val = 4 * ti.val + 3) :
    (outsAt0 m c t.val t.isLt).1 (ix2 r 0) = Cert.Rll.rowLoss (featsOf m c) (labelsOf m c) (Cert.Rll.row ti r) := by
  obtain ⟨i0, i1, i2, i3⟩ := accs_eq m c ti r 3 (by omega) t ht
  obtain ⟨p4, -⟩ := accs_last m c t (by omega) (by omega)
  rw [p4]
  exact tile_last (featsOf m c) (labelsOf m c) (Cert.Rll.row ti r) (outsAt0 m c t.val t.isLt).2.1 (outsAt0 m c t.val t.isLt).2.2.1
    (outsAt0 m c t.val t.isLt).2.2.2.1 (outsAt0 m c t.val t.isLt).2.2.2.2 r i0 i1 i2 i3

end Cert.KernelIdeal.Hand

end
-- ==== Proof.KI.Value.Final.lean ====
/- The output column of the row-block loss kernel after the whole grid, at the ideal values: entry R of the [4096, 1]
   array is the loss of row R. The output window's block at position t is rows 512 (t / 4) .. 512 (t / 4) + 511; it
   is written back only at the positions that end a row tile (t % 4 = 3), from what the visit there left in the
   staging buffer: the losses of that tile's rows. The eight write-backs cover the array: row R is in the block
   written at position 4 (R / 512) + 3. -/
import proofs.«136497_j10256381903181_1_alg».proof.Proof.KI.Value.Invariant

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

variable (m : (ℓ : Loc nD τ sig) → Buf (Elt Ideal) ℓ)

/-- The column of the 4096 row losses. -/
def lossCol (c : Dev nD) : Buf (Elt Ideal) ((c.tc : Thread nD τ).loc main_v2) :=
  fun i : S4096x1.Idx => Cert.Rll.rowLoss (featsOf m c) (labelsOf m c) ⟨(i 0).val, idx2_lt0 i⟩

/-- What a position that ends a row tile writes back is that tile's block of the column of row losses. -/
theorem flushed_eq_lossCol (c : Dev nD) (t : Fin cfg0.N) (hf : (cfg0.win 4).flush t = true) :
    (dats m 0 c).flushed 4 t = ((cfg0.win 4).blk t).view.read (Elt Ideal) (lossCol m c) := by
  have hN : cfg0.N = 32 := N_0
  have hlt : t.val < cfg0.N := t.isLt
  have h3 : t.val % 4 = 3 := (flush0_4 t).mp hf
  obtain ⟨-, -, -, -, -, -, -, -, e0, e1⟩ := index_val t
  show (cfg0.win 4).cut (grid0.coords t) ((dats m 0 c).after 4 t) = _
  rw [after0_4]
  funext j
  obtain ⟨r, z, rfl⟩ : ∃ (r : Fin 512) (z : Fin 1), j = (ix2 r z : S512x1.Idx) := ⟨j 0, j 1, eq_ix2 (n0 := 512) (n1 := 1) j⟩
  obtain rfl : z = 0 := Subsingleton.elim _ _
  show (outsAt0 m c t.val t.isLt).1 (ix2 r 0) = lossCol m c (((cfg0.win 4).blk t).view.emb (ix2 r 0))
  rw [out_eq_rowLoss m c ⟨t.val / 4, by omega⟩ r t (by show t.val = 4 * (t.val / 4) + 3; omega)]
  unfold lossCol
  refine congrArg (Cert.Rll.rowLoss (featsOf m c) (labelsOf m c)) (Fin.ext ?_)
  show t.val / 4 * 512 + r.val = win0_4.index t (0 : Fin 2) * 512 + 1 * r.val
  rw [e0]; omega

/-- An index of the column is in position t's block iff its row is one of the block's 512. -/
theorem mem_outBlock (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v2).slice (win0_4.rect t)).set ↔ _
  rw [View.set_slice_whole, Rect.mem_set_unit]
  exact Iff.rfl

/-- THE OUTPUT COLUMN after the region: the 4096 row losses. -/
theorem final_lossCol (c : Dev nD) : (dats m 0 c).arrAt 4 cfg0.N = lossCol m c :=
  (dats m 0 c).arrAt_eq_of_cover 4 (lossCol m c) (flushed_eq_lossCol m c) fun i => by
    have hN : cfg0.N = 32 := N_0
    have hi0 : (i 0).val < 4096 := idx2_lt0 (n0 := 4096) (n1 := 1) i
    have hi1 : (i 1).val < 1 := idx2_lt1 (n0 := 4096) (n1 := 1) i
    have hlt : 4 * ((i 0).val / 512) + 3 < cfg0.N := by omega
    obtain ⟨-, -, -, -, -, -, -, -, e0, e1⟩ := index_val ⟨4 * ((i 0).val / 512) + 3, hlt⟩
    refine ⟨⟨4 * ((i 0).val / 512) + 3, hlt⟩, (flush0_4 _).mpr (by show (4 * ((i 0).val / 512) + 3) % 4 = 3; omega), ?_⟩
    rw [mem_outBlock]
    intro a
    match a with
    | ⟨0, _⟩ =>
      show win0_4.index ⟨4 * ((i 0).val / 512) + 3, hlt⟩ (0 : Fin 2) * 512 ≤ (i 0).val ∧ (i 0).val < win0_4.index ⟨4 * ((i 0).val / 512) + 3, hlt⟩ (0 : Fin 2) * 512 + 512
      rw [e0]
      show (4 * ((i 0).val / 512) + 3) / 4 * 512 ≤ (i 0).val ∧ (i 0).val < (4 * ((i 0).val / 512) + 3) / 4 * 512 + 512
      omega
    | ⟨1, _⟩ =>
      show win0_4.index ⟨4 * ((i 0).val / 512) + 3, hlt⟩ (1 : Fin 2) * 1 ≤ (i 1).val ∧ (i 1).val < win0_4.index ⟨4 * ((i 0).val / 512) + 3, hlt⟩ (1 : Fin 2) * 1 + 1
      rw [e1]; omega

end Cert.KernelIdeal.Hand

end
-- ==== Proof.KI.Value.lean ====
/- THE VALUE of the row-block loss kernel at the ideal values: what the program returns is the ranked-list loss of
   the feature matrix and the labels it was given. The region leaves the column of the 4096 row losses; the host then
   adds the column up from zero and divides by 4096, which is the mean the specification names. -/
import proofs.«136497_j10256381903181_1_alg».proof.Proof.KI.Value.Final
import proofs.«136497_j10256381903181_1_alg».proof.Proof.KI.Run
import Idealize.ShloMosaic.Lib.IdealHost
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

/-- The host's tail at the ideal values: the zero word plus the sum of the 4096 row entries, divided by the 4096 word. -/
theorem tail_apply (o : FVec Ideal S4096x1 .f32) :
    tail (F := Ideal) o = fun _ => Ideal.div (∑ R : Fin 4096, o (ix2 R 0)) Cert.Rll.nW := by
  funext j
  unfold tail
  rw [hostDivf_apply, hostReduceAdd_apply, Ideal.hostReduceAdd_total reducesTo_S4096x1_S_d0_1 (fun b => b.elim0)]
  show Ideal.div (Ideal.ofBits .f32 0x00000000#32 + ∑ i : S4096x1.Idx, o i) (Ideal.ofBits .f32 0x45800000#32) = _
  rw [Ideal.ofBits_zero_f32, zero_add, sum_idx2 (n0 := 4096) (n1 := 1) o]
  simp only [Fin.sum_univ_one]

/-- THE KERNEL'S RESULT: the host's tail of the output column the region leaves is the loss. -/
theorem kernel_loss (m : (ℓ : Loc nD τ sig) → Buf (Elt Ideal) ℓ) (c : Dev nD) :
    tail (F := Ideal) ((dats m 0 c).arrAt 4 cfg0.N) = fun _ => Cert.Rll.loss (featsOf m c) (labelsOf m c) := by
  rw [final_lossCol m c, tail_apply]
  rfl

end Cert.KernelIdeal.Hand

end
-- ==== Proof.RefValue.lean ====
/-
  The reference program's result is the ranked-list loss of its two arguments.

  The reference is read one stage at a time, each stage at one index, with the feature matrix X by (row, column) and the
  labels by row:
    the row sums of X * X are the squared norms sq R; the product of X with its transpose is the Gram matrix;
    (sq R + sq C) - 2 * gram R C, clamped below by the small word and rooted, is dist R C;
    equal labels, the diagonal (row number plus zero against column number), and their combinations are the
    positive and the negative pairs, a complemented bit being the bit flipped by one;
    the selected hinge term, the selected exponential weight and the weighted term are apTerm, wTerm and anTerm;
    each float row sum is its zero initial value plus the sum over the columns;
    the integer row sum of the widened positive-pair bits, at most 4096 ones, never wraps, so its float conversion is
    the sum of the bits' values;
    the two quotients added are the row loss, and the sum of the row losses from zero divided by the word of 4096 is
    the loss.
  Every float literal stays the word the program prints; only the zero word is evaluated.
-/
import proofs.«136497_j10256381903181_1_alg».proof.Proof.Gen.ReferenceIdeal.Run
import proofs.«136497_j10256381903181_1_alg».proof.Proof.Gen.ReferenceIdeal.Read
import proofs.«136497_j10256381903181_1_alg».proof.Proof.Spec
import proofs.«136497_j10256381903181_1_alg».proof.Proof.SpecLaws
import Idealize.ShloMosaic.Lib.ValueIdx
import Idealize.ShloMosaic.Lib.StableHlo.Predicate
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx

variable (x : FVec Ideal S4096x512 .f32) (l : IVec S4096 32)

/-- The feature matrix by row and column. -/
abbrev refFeats : Cert.Rll.Feats := fun R k => x (ix2 R k)
/-- The labels by row. -/
abbrev refLabels : Cert.Rll.Labels := fun R => l (ix1 R)

/-! ## Where each stage reads its operands, by row and column -/

/-- Entry k of the sum over row R's squares sits at (R, k). -/
theorem idx_sq (R : Fin 4096) (k : Fin 512) : idx_main_v1 (ix1 R) k = ix2 R k :=
  funext fun a => Fin.ext (by match a with | ⟨0, _⟩ => rfl | ⟨1, _⟩ => rfl)
/-- The pair (R, C) reads the row norms at R ... -/
theorem idx_normRow (R C : Fin 4096) : idx_main_v2 (idx_main_v4 (ix2 R C)) = ix1 R :=
  funext fun a => Fin.ext (by match a with | ⟨0, _⟩ => rfl)
/-- ... and at C. -/
theorem idx_normCol (R C : Fin 4096) : idx_main_v3 (idx_main_v5 (ix2 R C)) = ix1 C :=
  funext fun a => Fin.ext (by match a with | ⟨0, _⟩ => rfl)
/-- The Gram entry (R, C) multiplies (R, k) ... -/
theorem idx_gramL (R C : Fin 4096) (k : Fin 512) : lidx_main_v8 (ix2 R C) k = ix2 R k :=
  funext fun a => Fin.ext (by match a with | ⟨0, _⟩ => rfl | ⟨1, _⟩ => rfl)
/-- ... by the transposed (k, C), which is (C, k). -/
theorem idx_gramR (R C : Fin 4096) (k : Fin 512) : idx_main_v7 (ridx_main_v8 (ix2 R C) k) = ix2 C k :=
  funext fun a => Fin.ext (by match a with | ⟨0, _⟩ => rfl | ⟨1, _⟩ => rfl)
/-- The pair (R, C) reads the labels at R ... -/
theorem idx_labRow (R C : Fin 4096) : idx_main_v14 (idx_main_v16 (ix2 R C)) = ix1 R :=
  funext fun a => Fin.ext (by match a with | ⟨0, _⟩ => rfl)
/-- ... and at C. -/
theorem idx_labCol (R C : Fin 4096) : idx_main_v15 (idx_main_v17 (ix2 R C)) = ix1 C :=
  funext fun a => Fin.ext (by match a with | ⟨0, _⟩ => rfl)
/-- Entry C of a row sum over the pairs sits at (R, C): the three float row sums share this map. -/
theorem idx_apRow (R C : Fin 4096) : idx_main_v32 (ix1 R) C = ix2 R C :=
  funext fun a => Fin.ext (by match a with | ⟨0, _⟩ => rfl | ⟨1, _⟩ => rfl)
theorem idx_anRow (R C : Fin 4096) : idx_main_v51 (ix1 R) C = ix2 R C :=
  funext fun a => Fin.ext (by match a with | ⟨0, _⟩ => rfl | ⟨1, _⟩ => rfl)
theorem idx_wRow (R C : Fin 4096) : idx_main_v52 (ix1 R) C = ix2 R C :=
  funext fun a => Fin.ext (by match a with | ⟨0, _⟩ => rfl | ⟨1, _⟩ => rfl)

/-! ## The pair stages -/

/-- The row sum of squares is the squared norm. -/
theorem sq_read (R : Fin 4096) : val_main_v1 (F := Ideal) x (ix1 R) = Cert.Rll.sq (refFeats x) R := by
  rw [val_main_v1_apply]
  simp only [val_main_v0_apply, val_main_cst_apply, idx_sq, Ideal.mulf_def, Ideal.ofBits_def, Ideal.ofBits_zero_f32, zero_add]
  rfl

/-- The product with the transpose is the Gram matrix. -/
theorem gram_read (R C : Fin 4096) : val_main_v8 (F := Ideal) x (ix2 R C) = Cert.Rll.gram (refFeats x) R C := by
  rw [val_main_v8_apply]
  simp only [val_main_v7_apply, idx_gramL, idx_gramR]
  rfl

/-- The clamped square root of the squared distance. -/
theorem dist_read (R C : Fin 4096) : val_main_v13 (F := Ideal) x (ix2 R C) = Cert.Rll.dist (refFeats x) R C := by
  simp only [val_main_v13_apply, val_main_v12_apply, val_main_call0_v1_apply, val_main_call0_v0_apply, val_main_cst_1_apply,
    val_main_v11_apply, val_main_v6_apply, val_main_v4_apply, val_main_v2_apply, val_main_v5_apply, val_main_v3_apply,
    val_main_v10_apply, val_main_v9_apply, val_main_cst_0_apply, idx_normRow, idx_normCol, sq_read, gram_read]
  rfl

/-- Equal labels. -/
theorem same_read (R C : Fin 4096) : val_main_v18 (F := Ideal) l (ix2 R C) = Cert.Rll.same (refLabels l) R C := by
  simp only [val_main_v18_apply, val_main_v16_apply, val_main_v14_apply, val_main_v17_apply, val_main_v15_apply, idx_labRow, idx_labCol]
  rfl

/-- The diagonal: row number plus zero against column number. -/
theorem eye_read (R C : Fin 4096) : val_main_v23 (F := Ideal) (ix2 R C) = Cert.Rll.eye R C := by
  simp only [val_main_v23_apply, val_main_v22_apply, val_main_v19_apply, val_main_v21_apply, val_main_c_apply, val_main_v20_apply]
  exact Cert.Rll.eye_host R C

/-- A positive pair. -/
theorem isPos_read (R C : Fin 4096) : val_main_v25 (F := Ideal) l (ix2 R C) = Cert.Rll.isPos (refLabels l) R C := by
  simp only [val_main_v25_apply, val_main_v24_apply, same_read, eye_read, Cert.Rll.not_eq_xor_one]
  rfl

/-- A negative pair. -/
theorem isNeg_read (R C : Fin 4096) : val_main_v26 (F := Ideal) l (ix2 R C) = Cert.Rll.isNeg (refLabels l) R C := by
  simp only [val_main_v26_apply, same_read, Cert.Rll.not_eq_xor_one]
  rfl

/-- The hinge term of a positive pair. -/
theorem apTerm_read (R C : Fin 4096) :
    val_main_v31 (F := Ideal) x l (ix2 R C) = Cert.Rll.apTerm (refFeats x) (refLabels l) R C := by
  simp only [val_main_v31_apply, val_main_v30_apply, val_main_v28_apply, val_main_v27_apply, val_main_cst_2_apply,
    val_main_v29_apply, val_main_cst_3_apply, val_main_call1_v1_apply, val_main_call1_v0_apply, val_main_cst_4_apply,
    isPos_read, dist_read]
  rfl

/-- The exponential weight of a close negative pair. -/
theorem wTerm_read (R C : Fin 4096) :
    val_main_v47 (F := Ideal) x l (ix2 R C) = Cert.Rll.wTerm (refFeats x) (refLabels l) R C := by
  simp only [val_main_v47_apply, val_main_v41_apply, val_main_v40_apply, val_main_v39_apply, val_main_cst_8_apply,
    val_main_v46_apply, val_main_v45_apply, val_main_v44_apply, val_main_cst_10_apply, val_main_v43_apply,
    val_main_v42_apply, val_main_cst_9_apply, val_main_call2_v1_apply, val_main_call2_v0_apply, val_main_cst_11_apply,
    isNeg_read, dist_read]
  rfl

/-- The weighted negative term. -/
theorem anTerm_read (R C : Fin 4096) :
    val_main_v50 (F := Ideal) x l (ix2 R C) = Cert.Rll.anTerm (refFeats x) (refLabels l) R C := by
  simp only [val_main_v50_apply, val_main_v49_apply, val_main_v48_apply, val_main_cst_12_apply, wTerm_read, dist_read]
  rfl

/-! ## The row stages -/

/-- The sum of the hinge terms over a row's positive pairs. -/
theorem apSum_read (R : Fin 4096) : val_main_v32 (F := Ideal) x l (ix1 R) = Cert.Rll.apSum (refFeats x) (refLabels l) R := by
  rw [val_main_v32_apply]
  simp only [val_main_cst_5_apply, idx_apRow, apTerm_read, Ideal.ofBits_def, Ideal.ofBits_zero_f32, zero_add]
  rfl

/-- The weighted negative sum of a row. -/
theorem anSum_read (R : Fin 4096) : val_main_v51 (F := Ideal) x l (ix1 R) = Cert.Rll.anSum (refFeats x) (refLabels l) R := by
  rw [val_main_v51_apply]
  simp only [val_main_cst_13_apply, idx_anRow, anTerm_read, Ideal.ofBits_def, Ideal.ofBits_zero_f32, zero_add]
  rfl

/-- The sum of a row's weights. -/
theorem wSum_read (R : Fin 4096) : val_main_v52 (F := Ideal) x l (ix1 R) = Cert.Rll.wSum (refFeats x) (refLabels l) R := by
  rw [val_main_v52_apply]
  simp only [val_main_cst_14_apply, idx_wRow, wTerm_read, Ideal.ofBits_def, Ideal.ofBits_zero_f32, zero_add]
  rfl

/-- The integer count of a row's positive pairs, converted to a float, is the sum of the pair counts: at most 4096
    ones never wrap a 32-bit word. -/
theorem cntSum_read (R : Fin 4096) : val_main_v35 (F := Ideal) l (ix1 R) = Cert.Rll.cntSum (refLabels l) R := by
  rw [val_main_v35_apply]
  unfold val_main_v34 val_main_v33 val_main_c_6
  refine (Cert.Rll.reduce_count_as_sum (n := 4096) (m := 4096) le_rfl (val_main_v25 (F := Ideal) l) natLt_1_32
    reducesTo_S4096x4096_S4096_d1 h_S_ (ix1 R)).trans ?_
  unfold Cert.Rll.cntSum Cert.Rll.cntTerm
  refine Finset.sum_congr rfl fun C _ => ?_
  have e : StableHlo.Predicate.ij ((ix1 R : S4096.Idx) 0) C = ix2 R C :=
    funext fun a => by match a with | ⟨0, _⟩ => rfl | ⟨1, _⟩ => rfl
  have e' : val_main_v25 (F := Ideal) l (StableHlo.Predicate.ij ((ix1 R : S4096.Idx) 0) C)
      = Cert.Rll.isPos (refLabels l) R C :=
    (congrArg (val_main_v25 (F := Ideal) l) e).trans (isPos_read l R C)
  exact congrArg (fun b : BitVec 1 => (((b.setWidth 32).toInt : ℝ) : EReal)) e'

/-- The loss of a row. -/
theorem rowLoss_read (R : Fin 4096) :
    val_main_v56 (F := Ideal) x l (ix1 R) = Cert.Rll.rowLoss (refFeats x) (refLabels l) R := by
  simp only [val_main_v56_apply, val_main_v38_apply, val_main_v37_apply, val_main_v36_apply, val_main_cst_7_apply,
    val_main_v55_apply, val_main_v54_apply, val_main_v53_apply, val_main_cst_15_apply,
    apSum_read, cntSum_read, anSum_read, wSum_read]
  rfl

/-! ## The mean -/

/-- A vector's indices are its coordinates. -/
def idxEquiv1 {n : ℕ} : (⟨1, ![n]⟩ : Shape).Idx ≃ Fin n where
  toFun i := i 0
  invFun a := ix1 a
  left_inv i := (eq_ix1 i).symm
  right_inv _ := rfl

/-- A sum over a vector's indices is the sum over its coordinates. -/
theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-- The reference's result is the loss of the feature matrix and the labels. -/
theorem ref_loss :
    val_main_v58 (F := Ideal) x l = fun _ => Cert.Rll.loss (fun R k => x (ValueIdx.ix2 R k)) (fun R => l (ValueIdx.ix1 R)) := by
  funext i
  rw [val_main_v58_apply, val_main_v57_apply, sum_idx1]
  simp only [rowLoss_read, val_main_cst_16_apply, val_main_cst_17_apply, Ideal.ofBits_def, Ideal.ofBits_zero_f32, zero_add]
  rfl

end Cert.ReferenceIdeal.Hand

end
-- ==== Proof.lean ====
/-
  The certificate of the ranked-list-loss kernel against its jnp reference.

  The kernel walks the 4096 × 4096 pair matrix in tiles of 512 rows by 1024 columns. For each row tile it keeps four running row sums
  (the positive pairs' hinge terms, their count, the negative pairs' weighted terms and their weights), reset at the first column tile,
  added to at each of the four column tiles, and turned into the row loss at the last; the host then averages the 4096 row losses.
  The reference forms the same per-pair terms over the whole matrix and sums each row at once. Over the extended reals a row's
  sum taken four column tiles at a time is the row's sum (addition is commutative and associative there, whatever the terms), and the
  count of positive pairs taken as a sum of zero-or-one floats is the integer count converted; so both programs end at
  Cert.Rll.loss of the argument arrays.

  The three frames: each kernel program's frame is its run read at the argument arrays; the reference's is its host run.
  The idealization rewrote nothing, so preserves asks nothing.
-/
import proofs.«136497_j10256381903181_1_alg».proof.Defs
import proofs.«136497_j10256381903181_1_alg».proof.Proof.Gen.Kernel
import proofs.«136497_j10256381903181_1_alg».proof.Proof.Gen.KernelIdeal
import proofs.«136497_j10256381903181_1_alg».proof.Proof.Gen.ReferenceIdeal
import proofs.«136497_j10256381903181_1_alg».proof.Proof.Gen.Pre_finite_inputs
import proofs.«136497_j10256381903181_1_alg».proof.Proof.Gen.ReferenceIdeal.Run
import proofs.«136497_j10256381903181_1_alg».proof.Proof.Gen.ReferenceIdeal.Read
import proofs.«136497_j10256381903181_1_alg».proof.Proof.K.Run
import proofs.«136497_j10256381903181_1_alg».proof.Proof.KI.Run
import proofs.«136497_j10256381903181_1_alg».proof.Proof.KI.Value
import proofs.«136497_j10256381903181_1_alg».proof.Proof.RefValue

noncomputable section

namespace Cert.Proof

open Idealize.ShloMosaic Idealize.ShloMosaic.TcCoe Idealize.SL.Sem

/-- The word-level kernel runs to the end and leaves its two arguments as they were. -/
theorem frame_k : Cert.frame_Kernel := fun m ρ _ =>
  (θ_run Cert.Kernel.defs _ _).mono (fun _ h c => ⟨(h c).2.1, (h c).2.2⟩) (Cert.Kernel.Hand.run_main (F := Bits) m ρ)

/-- So does the idealized kernel. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the mean ranked-list loss of the argument arrays. -/
theorem algebraic : Cert.algebraic_KernelIdeal_ReferenceIdeal := by
  intro m ρ m' ρ' _ hagree
  refine ⟨fun c => fun _ => Cert.Rll.loss (Cert.KernelIdeal.Hand.featsOf m c) (Cert.KernelIdeal.Hand.labelsOf m c), ?_, ?_⟩
  · exact (θ_run Cert.KernelIdeal.defs _ _).mono
      (fun _ h c => ⟨(h c).1.trans (Cert.KernelIdeal.Hand.kernel_loss m c), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, Cert.ReferenceIdeal.Hand.ref_loss, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
